-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000 : Shape := ⟨1, ![50000]⟩
abbrev S2x800000 : Shape := ⟨2, ![2, 800000]⟩
abbrev S131x64 : Shape := ⟨2, ![131, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000 : S_.BroadcastsInDim S50000 (![] : Fin 0 → Fin S50000.rank)
  reducesTo_S50000_S_d0 : S50000.ReducesTo [0] S_
  bcast_S_S131x64 : S_.BroadcastsInDim S131x64 (![] : Fin 0 → Fin S131x64.rank)
  reducesTo_S131x64_S_d0_1 : S131x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg2 : IVec S2x800000 32) (main_v48 : IVec S_ 1) (main_v50 : IVec S2x800000 1) : IVec S_ 1 :=
  let main_c_19 : IVec S_ 1 := constantI S_ 1 1#1
  let main_v51 : IVec S_ 1 := (fun x v => Host.reduce IntOp.andi x v reducesTo_S2x800000_S_d0_1 h_S_) main_v50 main_c_19
  let main_v52 : IVec S_ 1 := andi main_v48 main_v51
  let main_c_20 : IVec S_ 32 := constantI S_ 32 50000#32
  let main_v53 : IVec S2x800000 32 := broadcastInDim S2x800000 ![] bcast_S_S2x800000 main_c_20
  let main_v54 : IVec S2x800000 1 := cmpi .slt main_arg2 main_v53
  let main_c_21 : IVec S_ 1 := constantI S_ 1 1#1
  let main_v55 : IVec S_ 1 := (fun x v => Host.reduce IntOp.andi x v reducesTo_S2x800000_S_d0_1 h_S_) main_v54 main_c_21
  let main_v56 : IVec S_ 1 := andi main_v52 main_v55
  main_v56

def fn_part2 {F : FTy → Type} [FloatOps F] (main_arg2 : IVec S2x800000 32) (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S2x800000 32 := broadcastInDim S2x800000 ![] bcast_S_S2x800000 main_c_18
  let main_v50 : IVec S2x800000 1 := cmpi .sge main_arg2 main_v49
  fn_part3 (F := F) main_arg2 main_v48 main_v50

def fn_part1 {F : FTy → Type} [FloatOps F] (main_arg2 : IVec S2x800000 32) (main_arg5 : FVec F S131x64 .f32) (main_arg6 : FVec F S64 .f32) (main_arg7 : FVec F S64x64 .f32) (main_arg8 : FVec F S64 .f32) (main_arg9 : FVec F S64x64 .f32) (main_arg10 : FVec F S64 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S131x64 .f32 := Host.absf main_arg5
  let main_cst_6 : FVec F S_ .f32 := constant S_ .f32 0x7F800000#32
  let main_v20 : FVec F S131x64 .f32 := broadcastInDim S131x64 ![] bcast_S_S131x64 main_cst_6
  let main_v21 : IVec S131x64 1 := cmpf .olt main_v19 main_v20
  let main_c_7 : IVec S_ 1 := constantI S_ 1 1#1
  let main_v22 : IVec S_ 1 := (fun x v => Host.reduce IntOp.andi x v reducesTo_S131x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S50000x64 .f32) (main_arg1 : FVec F S50000 .f32) (main_arg2 : IVec S2x800000 32) (main_arg3 : FVec F S50000 .f32) (main_arg4 : FVec F S50000 .f32) (main_arg5 : FVec F S131x64 .f32) (main_arg6 : FVec F S64 .f32) (main_arg7 : FVec F S64x64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000 .f32 := Host.absf main_arg1
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S50000 .f32 := Host.absf main_arg3
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S50000 .f32 := Host.absf main_arg4
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg2 main_arg5 main_arg6 main_arg7 main_arg8 main_arg9 main_arg10 main_v13 main_v16
-- ==== Kernel.lean ====
abbrev S50000x64 : Shape := ⟨2, ![50000, 64]⟩
abbrev S50000 : Shape := ⟨1, ![50000]⟩
abbrev S2x800000 : Shape := ⟨2, ![2, 800000]⟩
abbrev S131x64 : Shape := ⟨2, ![131, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S800000x131 : Shape := ⟨2, ![800000, 131]⟩
abbrev S1x64 : Shape := ⟨2, ![1, 64]⟩
abbrev S10000x131 : Shape := ⟨2, ![10000, 131]⟩
abbrev S10000x1 : Shape := ⟨2, ![10000, 1]⟩
abbrev S10000x64 : Shape := ⟨2, ![10000, 64]⟩

abbrev nBuf : Space → Nat
  | .hbm => 192
  | .vmem => 12
  | .smem => 0
  | _ => 0

abbrev hbmTy0_0 (i : Nat) : BufTy := match i % 128 with
  | 0 => ⟨S50000x64, .f32⟩
  | 1 => ⟨S50000, .f32⟩
  | 2 => ⟨S2x800000, .i32⟩
  | 3 => ⟨S50000, .f32⟩
  | 4 => ⟨S50000, .f32⟩
  | 5 => ⟨S131x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S1, .i32⟩
  | 24 => ⟨S_, .i32⟩
  | 25 => ⟨S800000x1, .i32⟩
  | 26 => ⟨S800000x1, .i1⟩
  | 27 => ⟨S1x1, .i32⟩
  | 28 => ⟨S800000x1, .i32⟩
  | 29 => ⟨S800000x1, .i1⟩
  | 30 => ⟨S800000x1, .i1⟩
  | 31 => ⟨S_, .i1⟩
  | 32 => ⟨S800000, .i1⟩
  | 33 => ⟨S800000x64, .f32⟩
  | 34 => ⟨S800000x64, .i1⟩
  | 35 => ⟨S_, .f32⟩
  | 36 => ⟨S800000x64, .f32⟩
  | 37 => ⟨S800000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S1, .i32⟩
  | 47 => ⟨S_, .i32⟩
  | 48 => ⟨S800000x1, .i32⟩
  | 49 => ⟨S800000x1, .i1⟩
  | 50 => ⟨S1x1, .i32⟩
  | 51 => ⟨S800000x1, .i32⟩
  | 52 => ⟨S800000x1, .i1⟩
  | 53 => ⟨S800000x1, .i1⟩
  | 54 => ⟨S_, .i1⟩
  | 55 => ⟨S800000, .i1⟩
  | 56 => ⟨S800000x64, .f32⟩
  | 57 => ⟨S800000x64, .i1⟩
  | 58 => ⟨S_, .f32⟩
  | 59 => ⟨S800000x64, .f32⟩
  | 60 => ⟨S800000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S1, .i32⟩
  | 70 => ⟨S_, .i32⟩
  | 71 => ⟨S800000x1, .i32⟩
  | 72 => ⟨S800000x1, .i1⟩
  | 73 => ⟨S1x1, .i32⟩
  | 74 => ⟨S800000x1, .i32⟩
  | 75 => ⟨S800000x1, .i1⟩
  | 76 => ⟨S800000x1, .i1⟩
  | 77 => ⟨S_, .i1⟩
  | 78 => ⟨S800000, .i1⟩
  | 79 => ⟨S800000, .f32⟩
  | 80 => ⟨S_, .f32⟩
  | 81 => ⟨S800000, .f32⟩
  | 82 => ⟨S800000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S1, .i32⟩
  | 92 => ⟨S_, .i32⟩
  | 93 => ⟨S800000x1, .i32⟩
  | 94 => ⟨S800000x1, .i1⟩
  | 95 => ⟨S1x1, .i32⟩
  | 96 => ⟨S800000x1, .i32⟩
  | 97 => ⟨S800000x1, .i1⟩
  | 98 => ⟨S800000x1, .i1⟩
  | 99 => ⟨S_, .i1⟩
  | 100 => ⟨S800000, .i1⟩
  | 101 => ⟨S800000, .f32⟩
  | 102 => ⟨S_, .f32⟩
  | 103 => ⟨S800000, .f32⟩
  | 104 => ⟨S800000, .f32⟩
  | 105 => ⟨S800000, .f32⟩
  | 106 => ⟨S800000, .f32⟩
  | 107 => ⟨S800000x1, .f32⟩
  | 108 => ⟨S800000, .f32⟩
  | 109 => ⟨S800000x1, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S1, .i32⟩
  | 119 => ⟨S_, .i32⟩
  | 120 => ⟨S800000x1, .i32⟩
  | 121 => ⟨S800000x1, .i1⟩
  | 122 => ⟨S1x1, .i32⟩
  | 123 => ⟨S800000x1, .i32⟩
  | 124 => ⟨S800000x1, .i1⟩
  | 125 => ⟨S800000x1, .i1⟩
  | 126 => ⟨S_, .i1⟩
  | 127 => ⟨S800000, .i1⟩
  | _ => ⟨S50000x64, .f32⟩

abbrev hbmTy0_1 (i : Nat) : BufTy := match i % 128 with
  | 0 => ⟨S800000, .f32⟩
  | 1 => ⟨S_, .f32⟩
  | 2 => ⟨S800000, .f32⟩
  | 3 => ⟨S800000, .f32⟩
  | 4 => ⟨S800000x1, .f32⟩
  | 5 => ⟨S800000x131, .f32⟩
  | 6 => ⟨S800000x131, .bf16⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S1, .i32⟩
  | 16 => ⟨S_, .i32⟩
  | 17 => ⟨S800000x1, .i32⟩
  | 18 => ⟨S800000x1, .i1⟩
  | 19 => ⟨S1x1, .i32⟩
  | 20 => ⟨S800000x1, .i32⟩
  | 21 => ⟨S800000x1, .i1⟩
  | 22 => ⟨S800000x1, .i1⟩
  | 23 => ⟨S_, .i1⟩
  | 24 => ⟨S800000, .i1⟩
  | 25 => ⟨S800000, .f32⟩
  | 26 => ⟨S_, .f32⟩
  | 27 => ⟨S800000, .f32⟩
  | 28 => ⟨S800000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S1, .i32⟩
  | 38 => ⟨S_, .i32⟩
  | 39 => ⟨S800000x1, .i32⟩
  | 40 => ⟨S800000x1, .i1⟩
  | 41 => ⟨S1x1, .i32⟩
  | 42 => ⟨S800000x1, .i32⟩
  | 43 => ⟨S800000x1, .i1⟩
  | 44 => ⟨S800000x1, .i1⟩
  | 45 => ⟨S_, .i1⟩
  | 46 => ⟨S800000, .i1⟩
  | 47 => ⟨S800000, .f32⟩
  | 48 => ⟨S_, .f32⟩
  | 49 => ⟨S800000, .f32⟩
  | 50 => ⟨S800000, .f32⟩
  | 51 => ⟨S800000, .f32⟩
  | 52 => ⟨S800000x1, .f32⟩
  | 53 => ⟨S131x64, .bf16⟩
  | 54 => ⟨S64x64, .bf16⟩
  | 55 => ⟨S64x64, .bf16⟩
  | 56 => ⟨S1x64, .f32⟩
  | 57 => ⟨S1x64, .f32⟩
  | 58 => ⟨S1x64, .f32⟩
  | 59 => ⟨S800000x64, .f32⟩
  | 60 => ⟨S_, .f32⟩
  | 61 => ⟨S50000x64, .f32⟩
  | 62 => ⟨S800000x1, .i32⟩
  | 63 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S10000x131, .bf16⟩
  | .local _ .vmem, ⟨1, _⟩ => ⟨S10000x131, .bf16⟩
  | .local _ .vmem, ⟨2, _⟩ => ⟨S10000x1, .f32⟩
  | .local _ .vmem, ⟨3, _⟩ => ⟨S10000x1, .f32⟩
  | .local _ .vmem, ⟨4, _⟩ => ⟨S131x64, .bf16⟩
  | .local _ .vmem, ⟨5, _⟩ => ⟨S1x64, .f32⟩
  | .local _ .vmem, ⟨6, _⟩ => ⟨S64x64, .bf16⟩
  | .local _ .vmem, ⟨7, _⟩ => ⟨S1x64, .f32⟩
  | .local _ .vmem, ⟨8, _⟩ => ⟨S64x64, .bf16⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_cst : Ref sig .tc := ⟨.hbm, 80, rfl⟩
abbrev main_call2_v14 : Ref sig .tc := ⟨.hbm, 81, rfl⟩
abbrev main_v6 : Ref sig .tc := ⟨.hbm, 82, rfl⟩
abbrev main_call3_c : Ref sig .tc := ⟨.hbm, 83, rfl⟩
abbrev main_call3_v0 : Ref sig .tc := ⟨.hbm, 84, rfl⟩
abbrev main_call3_v1 : Ref sig .tc := ⟨.hbm, 85, rfl⟩
abbrev main_call3_c_0 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_c_1 : Ref sig .tc := ⟨.hbm, 91, rfl⟩
abbrev main_call3_c_2 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_call3_c_3 : Ref sig .tc := ⟨.hbm, 99, rfl⟩
abbrev main_call3_v12 : Ref sig .tc := ⟨.hbm, 100, rfl⟩
abbrev main_call3_v13 : Ref sig .tc := ⟨.hbm, 101, rfl⟩
abbrev main_call3_cst : Ref sig .tc := ⟨.hbm, 102, rfl⟩
abbrev main_call3_v14 : Ref sig .tc := ⟨.hbm, 103, rfl⟩
abbrev main_v7 : Ref sig .tc := ⟨.hbm, 104, rfl⟩
abbrev main_v8 : Ref sig .tc := ⟨.hbm, 105, rfl⟩
abbrev main_v9 : Ref sig .tc := ⟨.hbm, 106, rfl⟩
abbrev main_v10 : Ref sig .tc := ⟨.hbm, 107, rfl⟩
abbrev main_v11 : Ref sig .tc := ⟨.hbm, 108, rfl⟩
abbrev main_v12 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_cst : Ref sig .tc := ⟨.hbm, 129, rfl⟩
abbrev main_call4_v14 : Ref sig .tc := ⟨.hbm, 130, rfl⟩
abbrev main_v13 : Ref sig .tc := ⟨.hbm, 131, rfl⟩
abbrev main_v14 : Ref sig .tc := ⟨.hbm, 132, rfl⟩
abbrev main_v15 : Ref sig .tc := ⟨.hbm, 133, rfl⟩
abbrev main_v16 : Ref sig .tc := ⟨.hbm, 134, rfl⟩
abbrev main_call5_c : Ref sig .tc := ⟨.hbm, 135, rfl⟩
abbrev main_call5_v0 : Ref sig .tc := ⟨.hbm, 136, rfl⟩
abbrev main_call5_v1 : Ref sig .tc := ⟨.hbm, 137, rfl⟩
abbrev main_call5_c_0 : Ref sig .tc := ⟨.hbm, 138, rfl⟩
abbrev main_call5_v2 : Ref sig .tc := ⟨.hbm, 139, rfl⟩
abbrev main_call5_v3 : Ref sig .tc := ⟨.hbm, 140, rfl⟩
abbrev main_call5_v4 : Ref sig .tc := ⟨.hbm, 141, rfl⟩
abbrev main_call5_v5 : Ref sig .tc := ⟨.hbm, 142, rfl⟩
abbrev main_call5_c_1 : Ref sig .tc := ⟨.hbm, 143, rfl⟩
abbrev main_call5_c_2 : Ref sig .tc := ⟨.hbm, 144, rfl⟩
abbrev main_call5_v6 : Ref sig .tc := ⟨.hbm, 145, rfl⟩
abbrev main_call5_v7 : Ref sig .tc := ⟨.hbm, 146, rfl⟩
abbrev main_call5_v8 : Ref sig .tc := ⟨.hbm, 147, rfl⟩
abbrev main_call5_v9 : Ref sig .tc := ⟨.hbm, 148, rfl⟩
abbrev main_call5_v10 : Ref sig .tc := ⟨.hbm, 149, rfl⟩
abbrev main_call5_v11 : Ref sig .tc := ⟨.hbm, 150, rfl⟩
abbrev main_call5_c_3 : Ref sig .tc := ⟨.hbm, 151, rfl⟩
abbrev main_call5_v12 : Ref sig .tc := ⟨.hbm, 152, rfl⟩
abbrev main_call5_v13 : Ref sig .tc := ⟨.hbm, 153, rfl⟩
abbrev main_call5_cst : Ref sig .tc := ⟨.hbm, 154, rfl⟩
abbrev main_call5_v14 : Ref sig .tc := ⟨.hbm, 155, rfl⟩
abbrev main_v17 : Ref sig .tc := ⟨.hbm, 156, rfl⟩
abbrev main_call6_c : Ref sig .tc := ⟨.hbm, 157, rfl⟩
abbrev main_call6_v0 : Ref sig .tc := ⟨.hbm, 158, rfl⟩
abbrev main_call6_v1 : Ref sig .tc := ⟨.hbm, 159, rfl⟩
abbrev main_call6_c_0 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_call6_v5 : Ref sig .tc := ⟨.hbm, 164, rfl⟩
abbrev main_call6_c_1 : Ref sig .tc := ⟨.hbm, 165, rfl⟩
abbrev main_call6_c_2 : Ref sig .tc := ⟨.hbm, 166, rfl⟩
abbrev main_call6_v6 : Ref sig .tc := ⟨.hbm, 167, rfl⟩
abbrev main_call6_v7 : Ref sig .tc := ⟨.hbm, 168, rfl⟩
abbrev main_call6_v8 : Ref sig .tc := ⟨.hbm, 169, rfl⟩
abbrev main_call6_v9 : Ref sig .tc := ⟨.hbm, 170, rfl⟩
abbrev main_call6_v10 : Ref sig .tc := ⟨.hbm, 171, rfl⟩
abbrev main_call6_v11 : Ref sig .tc := ⟨.hbm, 172, rfl⟩
abbrev main_call6_c_3 : Ref sig .tc := ⟨.hbm, 173, rfl⟩
abbrev main_call6_v12 : Ref sig .tc := ⟨.hbm, 174, rfl⟩
abbrev main_call6_v13 : Ref sig .tc := ⟨.hbm, 175, rfl⟩
abbrev main_call6_cst : Ref sig .tc := ⟨.hbm, 176, rfl⟩
abbrev main_call6_v14 : Ref sig .tc := ⟨.hbm, 177, rfl⟩
abbrev main_v18 : Ref sig .tc := ⟨.hbm, 178, rfl⟩
abbrev main_v19 : Ref sig .tc := ⟨.hbm, 179, rfl⟩
abbrev main_v20 : Ref sig .tc := ⟨.hbm, 180, rfl⟩
abbrev main_call7_v0 : Ref sig .tc := ⟨.hbm, 181, rfl⟩
abbrev main_call7_v1 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_call7_v5 : Ref sig .tc := ⟨.hbm, 186, rfl⟩
abbrev main_v21 : Ref sig .tc := ⟨.hbm, 187, rfl⟩
abbrev main_cst : Ref sig .tc := ⟨.hbm, 188, rfl⟩
abbrev main_v22 : Ref sig .tc := ⟨.hbm, 189, rfl⟩
abbrev main_v23 : Ref sig .tc := ⟨.hbm, 190, rfl⟩
abbrev main_v24 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x131 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S131x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  concatenates_S800000x64_S800000x64_S800000x1_S800000x1_S800000x1_S800000x131_d1 : Shape.Concatenates [S800000x64, S800000x64, S800000x1, S800000x1, S800000x1] S800000x131 1
  bitsLt_bf16_f32 : FTy.bits .bf16 < FTy.bits .f32
  shapeCasts_S64_S1x64 : S64.ShapeCasts S1x64
  inb_S10000x131_S10000x131_0_0 : ∀ a, (![0, 0] : Fin 2 → Nat) a + S10000x131.size a ≤ S10000x131.size a
  h_S10000x131 : 0 < S10000x131.numel
  shapeCasts_S10000x131_S10000x131 : S10000x131.ShapeCasts S10000x131
  inb_S131x64_S131x64_0_0 : ∀ a, (![0, 0] : Fin 2 → Nat) a + S131x64.size a ≤ S131x64.size a
  h_S131x64 : 0 < S131x64.numel
  shapeCasts_S131x64_S131x64 : S131x64.ShapeCasts S131x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  dot_S10000x131_S131x64_S10000x64_1_0_0_1_n_n_wf : DotDims.WF S10000x131 S131x64 S10000x64 [1] [0] [0] [1] [] []
  dot_S10000x64_S64x64_S10000x64_1_0_0_1_n_n_wf : DotDims.WF S10000x64 S64x64 S10000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x131.size a ≤ S800000x131.size a
  hwx0_0 : ∀ i : grid0.Coords, EltTy.bits .bf16 = 32 ∨ (Rect.block (s := S800000x131) S10000x131.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S800000x1.size a
  hwx0_1 : ∀ i : grid0.Coords, EltTy.bits .f32 = 32 ∨ (Rect.block (s := S800000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S131x64.size a ≤ S131x64.size a
  hwx0_2 : ∀ i : grid0.Coords, EltTy.bits .bf16 = 32 ∨ (Rect.block (s := S131x64) S131x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x64.size a ≤ S800000x64.size a
  hwx0_8 : ∀ i : grid0.Coords, EltTy.bits .f32 = 32 ∨ (Rect.block (s := S800000x64) S10000x64.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x131_S131x64_S10000x64_1_0_0_1_n_n : DotDims S10000x131 S131x64 S10000x64 where
  lhsContracting := [1]
  rhsContracting := [0]
  lhsNonContracting := [0]
  rhsNonContracting := [1]
  lhsBatch := []
  rhsBatch := []
  wf := dot_S10000x131_S131x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v16) S10000x131.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call7_v0) S131x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call7_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call7_v1) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call7_v4) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call7_v2) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call7_v5) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S10000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000 : Shape := ⟨1, ![50000]⟩
abbrev S2x800000 : Shape := ⟨2, ![2, 800000]⟩
abbrev S131x64 : Shape := ⟨2, ![131, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x131 : Shape := ⟨2, ![800000, 131]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000, .f32⟩
  | .hbm, ⟨2, _⟩ => ⟨S2x800000, .i32⟩
  | .hbm, ⟨3, _⟩ => ⟨S50000, .f32⟩
  | .hbm, ⟨4, _⟩ => ⟨S50000, .f32⟩
  | .hbm, ⟨5, _⟩ => ⟨S131x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S800000, .f32⟩
  | .hbm, ⟨34, _⟩ => ⟨S800000, .f32⟩
  | .hbm, ⟨35, _⟩ => ⟨S800000x1, .f32⟩
  | .hbm, ⟨36, _⟩ => ⟨S800000, .f32⟩
  | .hbm, ⟨37, _⟩ => ⟨S800000x1, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000, .f32⟩
  | .hbm, ⟨65, _⟩ => ⟨S800000x1, .f32⟩
  | .hbm, ⟨66, _⟩ => ⟨S800000x131, .f32⟩
  | .hbm, ⟨67, _⟩ => ⟨S800000x64, .f32⟩
  | .hbm, ⟨68, _⟩ => ⟨S1x64, .f32⟩
  | .hbm, ⟨69, _⟩ => ⟨S800000x64, .f32⟩
  | .hbm, ⟨70, _⟩ => ⟨S800000x64, .f32⟩
  | .hbm, ⟨71, _⟩ => ⟨S_, .f32⟩
  | .hbm, ⟨72, _⟩ => ⟨S800000x64, .f32⟩
  | .hbm, ⟨73, _⟩ => ⟨S800000x64, .f32⟩
  | .hbm, ⟨74, _⟩ => ⟨S800000x64, .f32⟩
  | .hbm, ⟨75, _⟩ => ⟨S1x64, .f32⟩
  | .hbm, ⟨76, _⟩ => ⟨S800000x64, .f32⟩
  | .hbm, ⟨77, _⟩ => ⟨S800000x64, .f32⟩
  | .hbm, ⟨78, _⟩ => ⟨S_, .f32⟩
  | .hbm, ⟨79, _⟩ => ⟨S800000x64, .f32⟩
  | .hbm, ⟨80, _⟩ => ⟨S800000x64, .f32⟩
  | .hbm, ⟨81, _⟩ => ⟨S800000x64, .f32⟩
  | .hbm, ⟨82, _⟩ => ⟨S1x64, .f32⟩
  | .hbm, ⟨83, _⟩ => ⟨S800000x64, .f32⟩
  | .hbm, ⟨84, _⟩ => ⟨S800000x64, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000, .f32⟩
  | .hbm, ⟨103, _⟩ => ⟨S800000, .f32⟩
  | .hbm, ⟨104, _⟩ => ⟨S800000x1, .f32⟩
  | .hbm, ⟨105, _⟩ => ⟨S800000x64, .f32⟩
  | .hbm, ⟨106, _⟩ => ⟨S800000x64, .f32⟩
  | .hbm, ⟨107, _⟩ => ⟨S_, .f32⟩
  | .hbm, ⟨108, _⟩ => ⟨S50000x64, .f32⟩
  | .hbm, ⟨109, _⟩ => ⟨S800000x1, .i32⟩
  | .hbm, ⟨110, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call0_cst : Ref sig .tc := ⟨.hbm, 71, rfl⟩
abbrev main_call0_v0 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_9 : Ref sig .tc := ⟨.hbm, 85, rfl⟩
abbrev main_v60 : Ref sig .tc := ⟨.hbm, 86, rfl⟩
abbrev main_v61 : Ref sig .tc := ⟨.hbm, 87, rfl⟩
abbrev main_c_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_11 : Ref sig .tc := ⟨.hbm, 94, rfl⟩
abbrev main_v67 : Ref sig .tc := ⟨.hbm, 95, rfl⟩
abbrev main_v68 : Ref sig .tc := ⟨.hbm, 96, rfl⟩
abbrev main_c_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x1_S800000x1_S800000x1_S800000x131_d1 : Shape.Concatenates [S800000x64, S800000x64, S800000x1, S800000x1, S800000x1] S800000x131 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  dot_S800000x131_S131x64_S800000x64_1_0_0_1_n_n_wf : DotDims.WF S800000x131 S131x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1

variable [Facts₀]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x131_S131x64_S800000x64_1_0_0_1_n_n : DotDims S800000x131 S131x64 S800000x64 where
  lhsContracting := [1]
  rhsContracting := [0]
  lhsNonContracting := [0]
  rhsNonContracting := [1]
  lhsBatch := []
  rhsBatch := []
  wf := dot_S800000x131_S131x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KEntry.lean ====
/-
  What the region finds. The program's @main is twelve stretches of host operations, the one pallas_call, and a
  host tail. `V0 m c` is core `c`'s valuation of the TensorCore buffers after the twelve stretches, run from the
  launch memory `m`; `V m c b` is its buffer `b`. Everything about the region (its arrays, its blocks) is stated
  over `V`, which is kept folded: a fold over some two hundred operations.
-/
import proofs.«427009_j16535624090328_3_alg».proof.Proof.Gen.Kernel.Launch

noncomputable section

namespace Cert.Kernel.HF

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- The stretches of host operations before the region, in order. -/
abbrev pre : List (List (HloOp τ sig (Elt F))) :=
  [hostOps0, hostOps0_1, hostOps0_2, hostOps0_3, hostOps0_4, hostOps0_5, hostOps0_6, hostOps0_7, hostOps0_8,
   hostOps0_9, hostOps0_10, hostOps0_11]

/-- Core `c`'s TensorCore buffers when the region is entered. -/
abbrev V0 (c : Dev nD) : Valuation τ sig (Elt F) := StableHlo.after (List.flatten (pre (F := F))) (fun b => m (c, b))

/-- The same, one buffer at a time. -/
abbrev V (c : Dev nD) (b : Ref sig .tc) : Buf (Elt F) ((c : Thread nD τ).loc b) := V0 m c (Proc.devRef .tc b)

end Cert.Kernel.HF

end
-- ==== Proof.KFrame.lean ====
/-
  The frame of the program: every weakly fair execution of @main terminates without a fault, and the argument
  arrays end as they were launched. The kernel body loads its eight input blocks whole, computes one value from
  them, loads the output block (a value it does not use) and stores that value over the whole output block. So
  after the body at a grid point, each input's staging buffer still holds its block, and the output's holds the
  body's value of the eight blocks. @main is host operations, the region, host operations: the launch theorem
  for a region between host stretches gives the run, with every array of the pipeline named.
-/
import proofs.«427009_j16535624090328_3_alg».proof.Proof.KEntry
import proofs.«427009_j16535624090328_3_alg».proof.Proof.Gen.Kernel.Skeleton
import proofs.«427009_j16535624090328_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The eleven argument arrays of @main. -/
def argRefs : List (Ref sig .tc) :=
  [main_arg0, main_arg1, main_arg2, main_arg3, main_arg4, main_arg5, main_arg6, main_arg7, main_arg8, main_arg9, main_arg10]

/-- An operation whose one written buffer is no argument array writes no argument array. -/
theorem keeps_args {y : Ref sig .tc} (hy : y ∉ argRefs) :
    ∀ r ∈ argRefs, Proc.devRef (τ := τ) .tc r ∉ ({Proc.devRef .tc y} : Finset (DevRef τ sig)) :=
  fun r hr h => hy (Proc.devRef_injective _ (Finset.mem_singleton.mp h) ▸ hr)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the twelve host stretches, the region, and the host tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [pre, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [pre, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- The tail's four operations touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result (the zero scalar, its broadcast, the broadcast destination indices, the scatter-add's sum):
    none of the nine arrays the region stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.ternary_writes, Finset.mem_singleton] <;> exact StableHlo.devRef_ne_of_ne (by decide)

set_option maxHeartbeats 4000000 in
/-- No operation before the region writes an argument array: each writes its own result buffer. -/
theorem pre_keeps_args : ∀ op ∈ (pre (F := F)).flatten, ∀ r ∈ argRefs, Proc.devRef (τ := τ) .tc r ∉ op.writes :=
  List.forall_iff_forall_mem.mp (by
    simp only [pre, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes,
      StableHlo.reshape_writes, StableHlo.nary_writes]
    repeat' apply And.intro
    all_goals exact keeps_args (by decide))

/-- Nor does an operation of the tail. -/
theorem tail_keeps_args : ∀ op ∈ ([hostOps1] : List (List (HloOp τ sig (Elt F)))).flatten, ∀ r ∈ argRefs, Proc.devRef (τ := τ) .tc r ∉ op.writes :=
  List.forall_iff_forall_mem.mp (by
    simp only [hostOps1, List.flatten_cons, List.flatten_nil, List.append_nil, List.cons_append,
      List.nil_append, List.Forall, StableHlo.nullary_writes, StableHlo.unary_writes, StableHlo.ternary_writes]
    repeat' apply And.intro
    all_goals exact keeps_args (by decide))

/-- So the region finds every argument array as launched, -/
theorem V_arg (c : Dev nD) (r : Ref sig .tc) (hr : r ∈ argRefs) : V m c r = m ((c : Thread nD τ).loc r) :=
  StableHlo.after_of_forall_not_mem (b := Proc.devRef .tc r) _ _ fun op hop => pre_keeps_args op hop r hr

/-- and, none being an array the region stages, the tail leaves it so. -/
theorem W_arg (dats : (p : Fin 1) → (c : Dev nD) → Dat τ (Elt F) Unit ℕ (UR sig nD τ) ℕ (cfgs p) c) (c : Dev nD)
    (r : Ref sig .tc) (hr : r ∈ argRefs) (hw : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ fun op hop => tail_keeps_args op hop r hr,
    Pipeline.withArrays_of_ne _ c (V0 m c) _ r hw]
  exact V_arg m c r hr

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each one a whole block -/

abbrev rEf : Rect S10000x131 := Rect.unit (s := S10000x131) ![0, 0] S10000x131.size inb_S10000x131_S10000x131_0_0
abbrev rAlive : Rect S10000x1 := Rect.unit (s := S10000x1) ![0, 0] S10000x1.size inb_S10000x1_S10000x1_0_0
abbrev rW1 : Rect S131x64 := Rect.unit (s := S131x64) ![0, 0] S131x64.size inb_S131x64_S131x64_0_0
abbrev rBias : Rect S1x64 := Rect.unit (s := S1x64) ![0, 0] S1x64.size inb_S1x64_S1x64_0_0
abbrev rW : Rect S64x64 := Rect.unit (s := S64x64) ![0, 0] S64x64.size inb_S64x64_S64x64_0_0
abbrev rOut : Rect S10000x64 := Rect.unit (s := S10000x64) ![0, 0] S10000x64.size inb_S10000x64_S10000x64_0_0

/-- What the body leaves in the output window's buffer, from the eight input blocks (in window order: edge features,
    edge mask, then weight and bias of each of the three layers): its one store, of the body's value. -/
def outBlk (x0 : Vec F S10000x131 .bf16) (x1 : Vec F S10000x1 .f32) (x2 : Vec F S131x64 .bf16) (x3 : Vec F S1x64 .f32)
    (x4 : Vec F S64x64 .bf16) (x5 : Vec F S1x64 .f32) (x6 : Vec F S64x64 .bf16) (x7 : Vec F S1x64 .f32) : Vec F S10000x64 .f32 :=
  View.canon [⟨rOut, k0_pay1 (View.ld x0 rEf) (View.ld x2 rW1) (View.ld x3 rBias) (View.ld x4 rW) (View.ld x5 rBias)
    (View.ld x6 rW) (View.ld x7 rBias) (View.ld x1 rAlive)⟩]

/-! ## The pipeline's proof data -/

/-- The arrays as the region finds them; after the body at point `t` each input's buffer at its block and the
    output's at the body's value of the input blocks; the invariant the scoped rest, untouched; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_8 (c : Dev nD) (t : Fin cfg0.N) : (dats m 0 c).after 8 t
    = outBlk (iblk m c 0 t) (iblk m c 1 t) (iblk m c 2 t) (iblk m c 3 t) (iblk m c 4 t) (iblk m c 5 t) (iblk m c 6 t) (iblk m c 7 t) := by
  dsimp only [dats]

/-! ## Each input's buffer holds its block -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Input window 0's current buffer holds its block at every point, fetched there or not: unfetched, its block index
    has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Input window 1's current buffer holds its block at every point, fetched there or not: unfetched, its block index
    has not moved and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Input window 2's current buffer holds its block at every point, fetched there or not: unfetched, its block index
    has not moved and the body left the block in place. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- Input window 3's current buffer holds its block at every point, fetched there or not: unfetched, its block index
    has not moved and the body left the block in place. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- Input window 4's current buffer holds its block at every point, fetched there or not: unfetched, its block index
    has not moved and the body left the block in place. -/
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
/-- Input window 5's current buffer holds its block at every point, fetched there or not: unfetched, its block index
    has not moved and the body left the block in place. -/
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
/-- Input window 6's current buffer holds its block at every point, fetched there or not: unfetched, its block index
    has not moved and the body left the block in place. -/
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
/-- Input window 7's current buffer holds its block at every point, fetched there or not: unfetched, its block index
    has not moved and the body left the block in place. -/
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-! ## The body's triple -/

/-- The body's one store is of the whole output block, so it covers it. -/
theorem cover_out (p : Vec F S10000x64 .f32) (y : S10000x64.Idx) :
    ∃ pc ∈ ([⟨rOut, p⟩] : List (View.Piece (Elt F) S10000x64 .f32)), y ∈ pc.1.set :=
  View.cover_of_tiled [⟨rOut, p⟩] S10000x64.size (by rfl) y

set_option maxHeartbeats 4000000 in
/-- The body on whole buffers, the eight inputs' at contents `x0 … x7` and the output's at anything: it reads the eight,
    reads the output (a value it drops), stores its value over the whole output buffer; the inputs' buffers are as they
    were and the output's holds `outBlk` of them. -/
theorem sound_kernel (c : Dev nD) (E : Set ℕ) (i : grid0.Coords)
    (a0 : Memref sig .tc .vmem S10000x131 .bf16) (h0 : a0.IsWhole)
    (a1 : Memref sig .tc .vmem S10000x1 .f32) (h1 : a1.IsWhole)
    (a2 : Memref sig .tc .vmem S131x64 .bf16) (h2 : a2.IsWhole)
    (a3 : Memref sig .tc .vmem S1x64 .f32) (h3 : a3.IsWhole)
    (a4 : Memref sig .tc .vmem S64x64 .bf16) (h4 : a4.IsWhole)
    (a5 : Memref sig .tc .vmem S1x64 .f32) (h5 : a5.IsWhole)
    (a6 : Memref sig .tc .vmem S64x64 .bf16) (h6 : a6.IsWhole)
    (a7 : Memref sig .tc .vmem S1x64 .f32) (h7 : a7.IsWhole)
    (a8 : Memref sig .tc .vmem S10000x64 .f32) (h8 : a8.IsWhole)
    (x0 : Vec F S10000x131 .bf16)
    (x1 : Vec F S10000x1 .f32)
    (x2 : Vec F S131x64 .bf16)
    (x3 : Vec F S1x64 .f32)
    (x4 : Vec F S64x64 .bf16)
    (x5 : Vec F S1x64 .f32)
    (x6 : Vec F S64x64 .bf16)
    (x7 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (outBlk x0 x1 x2 x3 x4 x5 x6 x7)) -∗ K ⟨⟩))
      ⊢ wp frame (wpE (defs₀ (F := F)) Variants.none c none) E
          (cc0__edge_mlp_kernel i a0 h0 a1 h1 a2 h2 a3 h3 a4 h4 a5 h5 a6 h6 a7 h7 a8 h8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-! ## The body obligation, at a generic point -/

/-- What the body is called with at point `t`: the invariant, the core's debts, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the eight inputs' buffers hold their blocks, the output's holds something, so the body's
    triple applies; the invariant and the debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data says,
    every other unscoped buffer at what the host tail leaves of the region-entry contents with those arrays put in. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- An argument array is unscoped and no window's array, so the run's post speaks of it, and what it says is the
    launch contents. -/
theorem arg_end {r : PUnit × MemSt nD τ sig (Elt F)}
    (h : Pipeline.FramePost cfgs (dats m) 0 (Pipeline.afterTail₀ cfgs (dats m) 0 (V0 m) [hostOps1]) r)
    (c : Dev nD) (b : Ref sig .tc) (hb : b ∈ argRefs) (hs : b.isScoped = false) (ha : ∀ w, Pipeline.arrRef spec0 w ≠ b) :
    r.2.mem ((c.tc : Thread nD τ).loc b) = m ((c.tc : Thread nD τ).loc b) :=
  ((h c).2 b (Pipeline.mem_restRefs_of b hs ha)).trans (W_arg m (dats m) c b hb ha)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨arg_end m h c main_arg0 (by decide) (by decide) (by decide),
    arg_end m h c main_arg1 (by decide) (by decide) (by decide),
    arg_end m h c main_arg2 (by decide) (by decide) (by decide),
    arg_end m h c main_arg3 (by decide) (by decide) (by decide),
    arg_end m h c main_arg4 (by decide) (by decide) (by decide),
    arg_end m h c main_arg5 (by decide) (by decide) (by decide),
    arg_end m h c main_arg6 (by decide) (by decide) (by decide),
    arg_end m h c main_arg7 (by decide) (by decide) (by decide),
    arg_end m h c main_arg8 (by decide) (by decide) (by decide),
    arg_end m h c main_arg9 (by decide) (by decide) (by decide),
    arg_end m h c main_arg10 (by decide) (by decide) (by decide)⟩) (run_main m ρ)

end Cert.Kernel.HF

end
-- ==== Proof.KIEntry.lean ====
/-
  What the region finds. The program's @main is twelve stretches of host operations, the one pallas_call, and a
  host tail. `V0 m c` is core `c`'s valuation of the TensorCore buffers after the twelve stretches, run from the
  launch memory `m`; `V m c b` is its buffer `b`. Everything about the region (its arrays, its blocks) is stated
  over `V`, which is kept folded: a fold over some two hundred operations.
-/
import proofs.«427009_j16535624090328_3_alg».proof.Proof.Gen.KernelIdeal.Launch

noncomputable section

namespace Cert.KernelIdeal.HF

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The stretches of host operations before the region, in order. -/
abbrev pre : List (List (HloOp τ sig (Elt F))) :=
  [hostOps0, hostOps0_1, hostOps0_2, hostOps0_3, hostOps0_4, hostOps0_5, hostOps0_6, hostOps0_7, hostOps0_8,
   hostOps0_9, hostOps0_10, hostOps0_11]

/-- Core `c`'s TensorCore buffers when the region is entered. -/
abbrev V0 (c : Dev nD) : Valuation τ sig (Elt F) := StableHlo.after (List.flatten (pre (F := F))) (fun b => m (c, b))

/-- The same, one buffer at a time. -/
abbrev V (c : Dev nD) (b : Ref sig .tc) : Buf (Elt F) ((c : Thread nD τ).loc b) := V0 m c (Proc.devRef .tc b)

end Cert.KernelIdeal.HF

end
-- ==== Proof.KIFrame.lean ====
/-
  The frame of the program: every weakly fair execution of @main terminates without a fault, and the argument
  arrays end as they were launched. The kernel body loads its eight input blocks whole, computes one value from
  them, loads the output block (a value it does not use) and stores that value over the whole output block. So
  after the body at a grid point, each input's staging buffer still holds its block, and the output's holds the
  body's value of the eight blocks. @main is host operations, the region, host operations: the launch theorem
  for a region between host stretches gives the run, with every array of the pipeline named.
-/
import proofs.«427009_j16535624090328_3_alg».proof.Proof.KIEntry
import proofs.«427009_j16535624090328_3_alg».proof.Proof.Gen.KernelIdeal.Skeleton
import proofs.«427009_j16535624090328_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The eleven argument arrays of @main. -/
def argRefs : List (Ref sig .tc) :=
  [main_arg0, main_arg1, main_arg2, main_arg3, main_arg4, main_arg5, main_arg6, main_arg7, main_arg8, main_arg9, main_arg10]

/-- An operation whose one written buffer is no argument array writes no argument array. -/
theorem keeps_args {y : Ref sig .tc} (hy : y ∉ argRefs) :
    ∀ r ∈ argRefs, Proc.devRef (τ := τ) .tc r ∉ ({Proc.devRef .tc y} : Finset (DevRef τ sig)) :=
  fun r hr h => hy (Proc.devRef_injective _ (Finset.mem_singleton.mp h) ▸ hr)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the twelve host stretches, the region, and the host tail: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [pre, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub⟩)
    (by simp only [pre, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh⟩) main_chain

/-- The tail's four operations touch unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- Each writes its own result (the zero scalar, its broadcast, the broadcast destination indices, the scatter-add's sum):
    none of the nine arrays the region stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.ternary_writes, Finset.mem_singleton] <;> exact StableHlo.devRef_ne_of_ne (by decide)

set_option maxHeartbeats 4000000 in
/-- No operation before the region writes an argument array: each writes its own result buffer. -/
theorem pre_keeps_args : ∀ op ∈ (pre (F := F)).flatten, ∀ r ∈ argRefs, Proc.devRef (τ := τ) .tc r ∉ op.writes :=
  List.forall_iff_forall_mem.mp (by
    simp only [pre, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append,
      List.nil_append, List.Forall, StableHlo.nullary_writes, StableHlo.unary_writes, StableHlo.binary_writes, StableHlo.ternary_writes,
      StableHlo.reshape_writes, StableHlo.nary_writes]
    repeat' apply And.intro
    all_goals exact keeps_args (by decide))

/-- Nor does an operation of the tail. -/
theorem tail_keeps_args : ∀ op ∈ ([hostOps1] : List (List (HloOp τ sig (Elt F)))).flatten, ∀ r ∈ argRefs, Proc.devRef (τ := τ) .tc r ∉ op.writes :=
  List.forall_iff_forall_mem.mp (by
    simp only [hostOps1, List.flatten_cons, List.flatten_nil, List.append_nil, List.cons_append,
      List.nil_append, List.Forall, StableHlo.nullary_writes, StableHlo.unary_writes, StableHlo.ternary_writes]
    repeat' apply And.intro
    all_goals exact keeps_args (by decide))

/-- So the region finds every argument array as launched, -/
theorem V_arg (c : Dev nD) (r : Ref sig .tc) (hr : r ∈ argRefs) : V m c r = m ((c : Thread nD τ).loc r) :=
  StableHlo.after_of_forall_not_mem (b := Proc.devRef .tc r) _ _ fun op hop => pre_keeps_args op hop r hr

/-- and, none being an array the region stages, the tail leaves it so. -/
theorem W_arg (dats : (p : Fin 1) → (c : Dev nD) → Dat τ (Elt F) Unit ℕ (UR sig nD τ) ℕ (cfgs p) c) (c : Dev nD)
    (r : Ref sig .tc) (hr : r ∈ argRefs) (hw : ∀ w, Pipeline.arrRef spec0 w ≠ r) :
    Pipeline.afterTail₀ cfgs dats 0 (V0 m) [hostOps1] c r = m ((c : Thread nD τ).loc r) := by
  unfold Pipeline.afterTail₀
  rw [StableHlo.after_of_forall_not_mem (b := Proc.devRef .tc r) _ _ fun op hop => tail_keeps_args op hop r hr,
    Pipeline.withArrays_of_ne _ c (V0 m c) _ r hw]
  exact V_arg m c r hr

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: each one a whole block -/

abbrev rEf : Rect S10000x131 := Rect.unit (s := S10000x131) ![0, 0] S10000x131.size inb_S10000x131_S10000x131_0_0
abbrev rAlive : Rect S10000x1 := Rect.unit (s := S10000x1) ![0, 0] S10000x1.size inb_S10000x1_S10000x1_0_0
abbrev rW1 : Rect S131x64 := Rect.unit (s := S131x64) ![0, 0] S131x64.size inb_S131x64_S131x64_0_0
abbrev rBias : Rect S1x64 := Rect.unit (s := S1x64) ![0, 0] S1x64.size inb_S1x64_S1x64_0_0
abbrev rW : Rect S64x64 := Rect.unit (s := S64x64) ![0, 0] S64x64.size inb_S64x64_S64x64_0_0
abbrev rOut : Rect S10000x64 := Rect.unit (s := S10000x64) ![0, 0] S10000x64.size inb_S10000x64_S10000x64_0_0

/-- What the body leaves in the output window's buffer, from the eight input blocks (in window order: edge features,
    edge mask, then weight and bias of each of the three layers): its one store, of the body's value. -/
def outBlk (x0 : Vec F S10000x131 .bf16) (x1 : Vec F S10000x1 .f32) (x2 : Vec F S131x64 .bf16) (x3 : Vec F S1x64 .f32)
    (x4 : Vec F S64x64 .bf16) (x5 : Vec F S1x64 .f32) (x6 : Vec F S64x64 .bf16) (x7 : Vec F S1x64 .f32) : Vec F S10000x64 .f32 :=
  View.canon [⟨rOut, k0_pay1 (View.ld x0 rEf) (View.ld x2 rW1) (View.ld x3 rBias) (View.ld x4 rW) (View.ld x5 rBias)
    (View.ld x6 rW) (View.ld x7 rBias) (View.ld x1 rAlive)⟩]

/-! ## The pipeline's proof data -/

/-- The arrays as the region finds them; after the body at point `t` each input's buffer at its block and the
    output's at the body's value of the input blocks; the invariant the scoped rest, untouched; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_8 (c : Dev nD) (t : Fin cfg0.N) : (dats m 0 c).after 8 t
    = outBlk (iblk m c 0 t) (iblk m c 1 t) (iblk m c 2 t) (iblk m c 3 t) (iblk m c 4 t) (iblk m c 5 t) (iblk m c 6 t) (iblk m c 7 t) := by
  dsimp only [dats]

/-! ## Each input's buffer holds its block -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Input window 0's current buffer holds its block at every point, fetched there or not: unfetched, its block index
    has not moved and the body left the block in place. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
/-- Input window 1's current buffer holds its block at every point, fetched there or not: unfetched, its block index
    has not moved and the body left the block in place. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
/-- Input window 2's current buffer holds its block at every point, fetched there or not: unfetched, its block index
    has not moved and the body left the block in place. -/
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
/-- Input window 3's current buffer holds its block at every point, fetched there or not: unfetched, its block index
    has not moved and the body left the block in place. -/
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- Input window 4's current buffer holds its block at every point, fetched there or not: unfetched, its block index
    has not moved and the body left the block in place. -/
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
/-- Input window 5's current buffer holds its block at every point, fetched there or not: unfetched, its block index
    has not moved and the body left the block in place. -/
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
/-- Input window 6's current buffer holds its block at every point, fetched there or not: unfetched, its block index
    has not moved and the body left the block in place. -/
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
/-- Input window 7's current buffer holds its block at every point, fetched there or not: unfetched, its block index
    has not moved and the body left the block in place. -/
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)

/-! ## The body's triple -/

/-- The body's one store is of the whole output block, so it covers it. -/
theorem cover_out (p : Vec F S10000x64 .f32) (y : S10000x64.Idx) :
    ∃ pc ∈ ([⟨rOut, p⟩] : List (View.Piece (Elt F) S10000x64 .f32)), y ∈ pc.1.set :=
  View.cover_of_tiled [⟨rOut, p⟩] S10000x64.size (by rfl) y

set_option maxHeartbeats 4000000 in
/-- The body on whole buffers, the eight inputs' at contents `x0 … x7` and the output's at anything: it reads the eight,
    reads the output (a value it drops), stores its value over the whole output buffer; the inputs' buffers are as they
    were and the output's holds `outBlk` of them. -/
theorem sound_kernel (c : Dev nD) (E : Set ℕ) (i : grid0.Coords)
    (a0 : Memref sig .tc .vmem S10000x131 .bf16) (h0 : a0.IsWhole)
    (a1 : Memref sig .tc .vmem S10000x1 .f32) (h1 : a1.IsWhole)
    (a2 : Memref sig .tc .vmem S131x64 .bf16) (h2 : a2.IsWhole)
    (a3 : Memref sig .tc .vmem S1x64 .f32) (h3 : a3.IsWhole)
    (a4 : Memref sig .tc .vmem S64x64 .bf16) (h4 : a4.IsWhole)
    (a5 : Memref sig .tc .vmem S1x64 .f32) (h5 : a5.IsWhole)
    (a6 : Memref sig .tc .vmem S64x64 .bf16) (h6 : a6.IsWhole)
    (a7 : Memref sig .tc .vmem S1x64 .f32) (h7 : a7.IsWhole)
    (a8 : Memref sig .tc .vmem S10000x64 .f32) (h8 : a8.IsWhole)
    (x0 : Vec F S10000x131 .bf16)
    (x1 : Vec F S10000x1 .f32)
    (x2 : Vec F S131x64 .bf16)
    (x3 : Vec F S1x64 .f32)
    (x4 : Vec F S64x64 .bf16)
    (x5 : Vec F S1x64 .f32)
    (x6 : Vec F S64x64 .bf16)
    (x7 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (outBlk x0 x1 x2 x3 x4 x5 x6 x7)) -∗ K ⟨⟩))
      ⊢ wp frame (wpE (defs₀ (F := F)) Variants.none c none) E
          (cc0__edge_mlp_kernel i a0 h0 a1 h1 a2 h2 a3 h3 a4 h4 a5 h5 a6 h6 a7 h7 a8 h8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover_out _)

/-! ## The body obligation, at a generic point -/

/-- What the body is called with at point `t`: the invariant, the core's debts, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the eight inputs' buffers hold their blocks, the output's holds something, so the body's
    triple applies; the invariant and the debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data says,
    every other unscoped buffer at what the host tail leaves of the region-entry contents with those arrays put in. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- An argument array is unscoped and no window's array, so the run's post speaks of it, and what it says is the
    launch contents. -/
theorem arg_end {r : PUnit × MemSt nD τ sig (Elt F)}
    (h : Pipeline.FramePost cfgs (dats m) 0 (Pipeline.afterTail₀ cfgs (dats m) 0 (V0 m) [hostOps1]) r)
    (c : Dev nD) (b : Ref sig .tc) (hb : b ∈ argRefs) (hs : b.isScoped = false) (ha : ∀ w, Pipeline.arrRef spec0 w ≠ b) :
    r.2.mem ((c.tc : Thread nD τ).loc b) = m ((c.tc : Thread nD τ).loc b) :=
  ((h c).2 b (Pipeline.mem_restRefs_of b hs ha)).trans (W_arg m (dats m) c b hb ha)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨arg_end m h c main_arg0 (by decide) (by decide) (by decide),
    arg_end m h c main_arg1 (by decide) (by decide) (by decide),
    arg_end m h c main_arg2 (by decide) (by decide) (by decide),
    arg_end m h c main_arg3 (by decide) (by decide) (by decide),
    arg_end m h c main_arg4 (by decide) (by decide) (by decide),
    arg_end m h c main_arg5 (by decide) (by decide) (by decide),
    arg_end m h c main_arg6 (by decide) (by decide) (by decide),
    arg_end m h c main_arg7 (by decide) (by decide) (by decide),
    arg_end m h c main_arg8 (by decide) (by decide) (by decide),
    arg_end m h c main_arg9 (by decide) (by decide) (by decide),
    arg_end m h c main_arg10 (by decide) (by decide) (by decide)⟩) (run_main m ρ)

end Cert.KernelIdeal.HF

end
-- ==== Proof.Spec.lean ====
/-
  The mathematics both programs compute, with no program in sight. Every edge e carries a feature row x ∈ ℝ̄^131
  and a mask factor a ∈ ℝ̄; its message is a three-layer perceptron of the row, times the factor:
      msg_j = ( Σ_k relu( Σ_k' relu( Σ_k'' x_k'' · W1_k''k' + b1_k' ) · W2_k'k + b2_k ) · W3_kj + b3_j ) · a ,
  on the extended reals, relu t = max t 0. A layer is stated over any input width, so that the three layers are
  one definition. Also here: the range condition on the edge list under which both programs gather the same rows.
-/
import Idealize.ShloMosaic.Lib.ValueIdx
import Idealize.ShloMosaic.PureOps.Ideal.Laws

noncomputable section

namespace Cert.Spec

open Idealize.ShloMosaic

/-- max t 0 on the extended reals. -/
def relu (t : EReal) : EReal := max t 0

/-- One affine layer, output coordinate `j`: Σ_k x_k · W_kj + b_j. -/
def layer {K : Nat} (x : Fin K → EReal) (W : Fin K → Fin 64 → EReal) (b : Fin 64 → EReal) (j : Fin 64) : EReal :=
  (∑ k : Fin K, x k * W k j) + b j

/-- The message of one edge from its feature row `x` and mask factor `a`, coordinate `j`. -/
def msgRow (x : Fin 131 → EReal) (a : EReal) (W1 : Fin 131 → Fin 64 → EReal) (b1 : Fin 64 → EReal)
    (W2 : Fin 64 → Fin 64 → EReal) (b2 : Fin 64 → EReal) (W3 : Fin 64 → Fin 64 → EReal) (b3 : Fin 64 → EReal)
    (j : Fin 64) : EReal :=
  layer (fun k => relu (layer (fun k' => relu (layer x W1 b1 k')) W2 b2 k)) W3 b3 j * a

/-- Every entry of the edge list is a node number: 0 ≤ entry < 50000, as signed 32-bit compares. -/
def IdxOk (x2 : (⟨2, ![2, 800000]⟩ : Shape).Idx → BitVec 32) : Prop :=
  ∀ i, IntOp.cmpi .sge (x2 i) 0#32 = 1#1 ∧ IntOp.cmpi .slt (x2 i) 50000#32 = 1#1

end Cert.Spec

end
-- ==== Proof.KIPayload.lean ====
/-
  The kernel body's value at one entry of the output block. The body computes, from a block of 10000 edge feature
  rows x, their mask factors a, and the three layers' weights and bias rows,
      ((relu(relu(x·W1 + b1)·W2 + b2))·W3 + b3) * a ,
  the products on the matrix unit into a zero accumulator, the biases broadcast down the rows, the mask factor
  along them, the narrowings to the half format exact on the extended reals. Entry (p, q) is therefore the
  three-layer message of row p, coordinate q.
-/
import proofs.«427009_j16535624090328_3_alg».proof.Proof.Gen.KernelIdeal.Skeleton
import proofs.«427009_j16535624090328_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HV

open Idealize.ShloMosaic Idealize.ShloMosaic.TcCoe Idealize.ShloMosaic.ValueIdx
open Cert.KernelIdeal Cert.KernelIdeal.Gen

/-! ## A column broadcast along the rows -/

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an entry

  Both contract the left operand's columns against the right operand's rows; the contraction index has one axis, so
  the sum over it is a sum over its one coordinate. -/

/-- The left operand's row coordinate at output index `i` is `i`'s row. -/
theorem lhs131_0 (i : S10000x64.Idx) (c : dot_S10000x131_S131x64_S10000x64_1_0_0_1_n_n.contr.Idx) :
    (dot_S10000x131_S131x64_S10000x64_1_0_0_1_n_n.lhsIdx i c 0).val = (i 0).val := by
  unfold DotDims.lhsIdx
  rw [dif_neg (show ¬(0 : Fin S10000x131.rank) ∈ dot_S10000x131_S131x64_S10000x64_1_0_0_1_n_n.lhsBatch by decide), dif_pos (show (0 : Fin S10000x131.rank) ∈ dot_S10000x131_S131x64_S10000x64_1_0_0_1_n_n.lhsNonContracting by decide)]
  rfl
/-- The left operand's column coordinate is the contraction coordinate. -/
theorem lhs131_1 (i : S10000x64.Idx) (c : dot_S10000x131_S131x64_S10000x64_1_0_0_1_n_n.contr.Idx) :
    (dot_S10000x131_S131x64_S10000x64_1_0_0_1_n_n.lhsIdx i c 1).val = (c ⟨0, by decide⟩).val :=
  dot_S10000x131_S131x64_S10000x64_1_0_0_1_n_n.lhsIdx_val_of_single rfl i c
/-- The right operand's row coordinate is the contraction coordinate. -/
theorem rhs131_0 (i : S10000x64.Idx) (c : dot_S10000x131_S131x64_S10000x64_1_0_0_1_n_n.contr.Idx) :
    (dot_S10000x131_S131x64_S10000x64_1_0_0_1_n_n.rhsIdx i c 0).val = (c ⟨0, by decide⟩).val :=
  dot_S10000x131_S131x64_S10000x64_1_0_0_1_n_n.rhsIdx_val_of_single rfl i c
/-- The right operand's column coordinate at output index `i` is `i`'s column. -/
theorem rhs131_1 (i : S10000x64.Idx) (c : dot_S10000x131_S131x64_S10000x64_1_0_0_1_n_n.contr.Idx) :
    (dot_S10000x131_S131x64_S10000x64_1_0_0_1_n_n.rhsIdx i c 1).val = (i 1).val := by
  unfold DotDims.rhsIdx
  rw [dif_neg (show ¬(1 : Fin S131x64.rank) ∈ dot_S10000x131_S131x64_S10000x64_1_0_0_1_n_n.rhsBatch by decide), dif_pos (show (1 : Fin S131x64.rank) ∈ dot_S10000x131_S131x64_S10000x64_1_0_0_1_n_n.rhsNonContracting by decide)]
  rfl

/-- A [10000, 131] by [131, 64] product into a zero accumulator, entry (p, q): Σ_k l_pk · r_kq. -/
theorem mm131 (l : FVec Ideal S10000x131 .bf16) (r : FVec Ideal S131x64 .bf16) (p : Fin 10000) (q : Fin 64) :
    matmul (F := Ideal) dot_S10000x131_S131x64_S10000x64_1_0_0_1_n_n none l r (constant (F := Ideal) S10000x64 .f32 0x00000000#32) (ix2 p q)
      = ∑ k : Fin 131, l (ix2 p k) * r (ix2 k q) := by
  refine (Ideal.matmul_constant_zero_apply dot_S10000x131_S131x64_S10000x64_1_0_0_1_n_n none l r (ix2 p q)).trans ?_
  rw [← Equiv.sum_comp (contrEquiv1 dot_S10000x131_S131x64_S10000x64_1_0_0_1_n_n 131 rfl rfl).symm]
  refine Finset.sum_congr rfl fun k _ => ?_
  have hk := contrEquiv1_symm_val dot_S10000x131_S131x64_S10000x64_1_0_0_1_n_n 131 rfl rfl k
  have el : dot_S10000x131_S131x64_S10000x64_1_0_0_1_n_n.lhsIdx (ix2 p q) ((contrEquiv1 dot_S10000x131_S131x64_S10000x64_1_0_0_1_n_n 131 rfl rfl).symm k) = ix2 p k := funext fun a => Fin.ext (by
    match a with
    | ⟨0, _⟩ => exact lhs131_0 _ _
    | ⟨1, _⟩ => exact (lhs131_1 _ _).trans hk)
  have er : dot_S10000x131_S131x64_S10000x64_1_0_0_1_n_n.rhsIdx (ix2 p q) ((contrEquiv1 dot_S10000x131_S131x64_S10000x64_1_0_0_1_n_n 131 rfl rfl).symm k) = ix2 k q := funext fun a => Fin.ext (by
    match a with
    | ⟨0, _⟩ => exact (rhs131_0 _ _).trans hk
    | ⟨1, _⟩ => exact rhs131_1 _ _)
  rw [el, er]

/-- The left operand's row coordinate at output index `i` is `i`'s row. -/
theorem lhs64_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The left operand's column coordinate is the contraction coordinate. -/
theorem lhs64_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
/-- The right operand's row coordinate is the contraction coordinate. -/
theorem rhs64_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
/-- The right operand's column coordinate at output index `i` is `i`'s column. -/
theorem rhs64_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A [10000, 64] by [64, 64] product into a zero accumulator, entry (p, q): Σ_k l_pk · r_kq. -/
theorem mm64 (l : FVec Ideal S10000x64 .bf16) (r : FVec Ideal S64x64 .bf16) (p : Fin 10000) (q : Fin 64) :
    matmul (F := Ideal) dot_S10000x64_S64x64_S10000x64_1_0_0_1_n_n none l r (constant (F := Ideal) S10000x64 .f32 0x00000000#32) (ix2 p q)
      = ∑ k : Fin 64, l (ix2 p k) * r (ix2 k q) := by
  refine (Ideal.matmul_constant_zero_apply dot_S10000x64_S64x64_S10000x64_1_0_0_1_n_n none l r (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-! ## The layers at an entry -/

/-- The maximum against the zero splat, then the narrowing (the identity on the extended reals): relu of the entry. -/
theorem relu_apply (v : FVec Ideal S10000x64 .f32) (p : Fin 10000) (q : Fin 64) :
    (truncf .bf16 (maximumf v (broadcast S10000x64 (Scalar.ofBits (F := Ideal) .f32 0x00000000#32))) bitsLt_bf16_f32
      : FVec Ideal S10000x64 .bf16) (ix2 p q) = Cert.Spec.relu (v (ix2 p q)) := by
  show max (v (ix2 p q)) (Ideal.ofBits .f32 0x00000000#32) = max (v (ix2 p q)) 0
  rw [Ideal.ofBits_zero_f32]

/-- One affine layer of the body at entry (p, q): the product into the zero accumulator plus the bias row broadcast
    down the rows is Σ_k l_pk · W_kq + b_q. The weights and the bias row pass through identity shape casts. -/
theorem layer131_apply (l : FVec Ideal S10000x131 .bf16) (w : FVec Ideal S131x64 .bf16) (b : FVec Ideal S1x64 .f32)
    (p : Fin 10000) (q : Fin 64) :
    addf (matmul (F := Ideal) dot_S10000x131_S131x64_S10000x64_1_0_0_1_n_n none l (shapeCast S131x64 w shapeCasts_S131x64_S131x64)
        (constant (F := Ideal) S10000x64 .f32 0x00000000#32))
      (broadcastTo S10000x64 (shapeCast S1x64 b shapeCasts_S1x64_S1x64) broadcasts_S1x64_S10000x64) (ix2 p q)
      = Cert.Spec.layer (fun k => l (ix2 p k)) (fun k j => w (ix2 k j)) (fun j => b (ix2 0 j)) q := by
  rw [shapeCast_self, shapeCast_self]
  refine (addf_apply _ _ _).trans ?_
  rw [mm131, broadcastTo_1b_ab_apply]
  rfl

/-- One affine layer of the body at entry (p, q): the product into the zero accumulator plus the bias row broadcast
    down the rows is Σ_k l_pk · W_kq + b_q. The weights and the bias row pass through identity shape casts. -/
theorem layer64_apply (l : FVec Ideal S10000x64 .bf16) (w : FVec Ideal S64x64 .bf16) (b : FVec Ideal S1x64 .f32)
    (p : Fin 10000) (q : Fin 64) :
    addf (matmul (F := Ideal) dot_S10000x64_S64x64_S10000x64_1_0_0_1_n_n none l (shapeCast S64x64 w shapeCasts_S64x64_S64x64)
        (constant (F := Ideal) S10000x64 .f32 0x00000000#32))
      (broadcastTo S10000x64 (shapeCast S1x64 b shapeCasts_S1x64_S1x64) broadcasts_S1x64_S10000x64) (ix2 p q)
      = Cert.Spec.layer (fun k => l (ix2 p k)) (fun k j => w (ix2 k j)) (fun j => b (ix2 0 j)) q := by
  rw [shapeCast_self, shapeCast_self]
  refine (addf_apply _ _ _).trans ?_
  rw [mm64, broadcastTo_1b_ab_apply]
  rfl

/-! ## The body's value at an entry -/

/-- Entry (p, q) of the body's value is the message of feature row p with mask factor a_p, coordinate q. -/
theorem pay_apply (x0 : Vec Ideal S10000x131 .bf16) (x2 : Vec Ideal S131x64 .bf16) (x3 : Vec Ideal S1x64 .f32)
    (x4 : Vec Ideal S64x64 .bf16) (x5 : Vec Ideal S1x64 .f32) (x6 : Vec Ideal S64x64 .bf16) (x7 : Vec Ideal S1x64 .f32)
    (x1 : Vec Ideal S10000x1 .f32) (p : Fin 10000) (q : Fin 64) :
    k0_pay1 (F := Ideal) x0 x2 x3 x4 x5 x6 x7 x1 (ix2 p q)
      = Cert.Spec.msgRow (fun k => x0 (ix2 p k)) (x1 (ix2 p 0)) (fun k j => x2 (ix2 k j)) (fun j => x3 (ix2 0 j))
          (fun k j => x4 (ix2 k j)) (fun j => x5 (ix2 0 j)) (fun k j => x6 (ix2 k j)) (fun j => x7 (ix2 0 j)) q := by
  unfold k0_pay1
  -- the last operation is the product with the mask column broadcast along the rows
  refine (mulf_apply _ _ _).trans ?_
  rw [shapeCast_self x0, shapeCast_self x1, layer64_apply, broadcastTo_a1_ab_apply]
  unfold Cert.Spec.msgRow
  refine congrArg (fun t => t * x1 (ix2 p 0)) ?_
  -- the third layer reads the second hidden row, entry by entry
  refine congrArg (fun h => Cert.Spec.layer h (fun k j => x6 (ix2 k j)) (fun j => x7 (ix2 0 j)) q) (funext fun k => ?_)
  rw [relu_apply, layer64_apply]
  -- the second layer reads the first hidden row, entry by entry
  refine congrArg (fun h => Cert.Spec.relu (Cert.Spec.layer h (fun k j => x4 (ix2 k j)) (fun j => x5 (ix2 0 j)) k))
    (funext fun k' => ?_)
  rw [relu_apply, layer131_apply]

end Cert.KernelIdeal.HV

end
-- ==== Proof.KIValue.lean ====
/-
  The kernel program's result, named. The region writes the message array block by block: grid point t writes
  rows 10000·t … 10000·t + 9999, each entry the body's value of the blocks at t, and the blocks of the feature and
  mask arrays at t are those rows of the arrays while the weights' and biases' blocks are the whole arrays. The 80
  blocks tile the 800000 rows, so the array after the region is ONE function of the region-entry arrays: row e is
  the three-layer message of feature row e. The host tail then scatter-adds the rows into a zero array by
  destination node.
-/
import proofs.«427009_j16535624090328_3_alg».proof.Proof.KIFrame
import proofs.«427009_j16535624090328_3_alg».proof.Proof.KIPayload
import proofs.«427009_j16535624090328_3_alg».proof.Proof.Spec
import Idealize.ShloMosaic.Lib.Pipeline.Value
import Idealize.ShloMosaic.Lib.ValueIdx
import Idealize.ShloMosaic.Lib.StableHlo.Run

noncomputable section

set_option maxRecDepth 16384

namespace Cert.KernelIdeal.HVal

open Idealize.ShloMosaic Idealize.ShloMosaic.TcCoe Idealize.ShloMosaic.ValueIdx
open Idealize.SL Idealize.SL.Sem
open Cert.KernelIdeal Cert.KernelIdeal.Gen Cert.KernelIdeal.HF

variable (m : (ℓ : Loc nD τ sig) → Buf (Elt Ideal) ℓ) (ρ : Dev nD → PrngReg)

/-- The row and the column of an entry of the message array, as plain bounded numbers. -/
abbrev rowOf (i : S800000x64.Idx) : Fin 800000 := ⟨(i 0).val, (i 0).isLt⟩
abbrev colOf (i : S800000x64.Idx) : Fin 64 := ⟨(i 1).val, (i 1).isLt⟩

/-- The message array after the region, from the region-entry arrays: entry (e, q) is the message of feature row e. -/
def msgArr (c : Dev nD) : FVec Ideal S800000x64 .f32 := fun i =>
  Cert.Spec.msgRow (fun k => (V m c main_v16 : S800000x131.Idx → EReal) (ix2 (rowOf i) k))
    ((V m c main_v20 : S800000x1.Idx → EReal) (ix2 (rowOf i) 0))
    (fun k j => (V m c main_call7_v0 : S131x64.Idx → EReal) (ix2 k j)) (fun j => (V m c main_call7_v3 : S1x64.Idx → EReal) (ix2 0 j))
    (fun k j => (V m c main_call7_v1 : S64x64.Idx → EReal) (ix2 k j)) (fun j => (V m c main_call7_v4 : S1x64.Idx → EReal) (ix2 0 j))
    (fun k j => (V m c main_call7_v2 : S64x64.Idx → EReal) (ix2 k j)) (fun j => (V m c main_call7_v5 : S1x64.Idx → EReal) (ix2 0 j))
    (colOf i)

/-! ## The index maps -/

/-- Every whole-block rectangle starts at the origin. -/
theorem origin2 : (![0, 0] : Fin 2 → Nat) = fun _ => 0 := funext fun a => by fin_cases a <;> rfl

/-- The grid has 80 points. -/
theorem point_lt (t : Fin cfg0.N) : t.val < 80 := lt_of_lt_of_eq t.isLt N_0

/-- The index maps, decided over the grid: at point `t` the feature, mask and output windows are at block row `t`,
    block column 0; the six weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The blocks, read off the arrays -/

/-- Row `p` of the feature window's block at point `t` is row `10000·t + p` of the array it is cut from. -/
theorem read_feat (A : S800000x131.Idx → EReal) (t : Fin cfg0.N) (p : Fin 10000) (k : Fin 131) (e : Fin 800000)
    (he : e.val = 10000 * t.val + p.val) : ((cfg0.win 0).blk t).view.read (Elt Ideal) A (ix2 p k) = A (ix2 e k) := by
  obtain ⟨h0, h1, -⟩ := idx_facts t
  show A (((cfg0.win 0).blk t).view.emb (ix2 p k)) = _
  refine congrArg A (funext fun a => Fin.ext ?_)
  match a with
  | ⟨0, _⟩ => show win0_0.index t (0 : Fin 2) * 10000 + 1 * p.val = e.val; omega
  | ⟨1, _⟩ => show win0_0.index t (1 : Fin 2) * 131 + 1 * k.val = k.val; omega

/-- Row `p` of the mask window's block at point `t` is row `10000·t + p` of the array it is cut from. -/
theorem read_mask (A : S800000x1.Idx → EReal) (t : Fin cfg0.N) (p : Fin 10000) (z : Fin 1) (e : Fin 800000)
    (he : e.val = 10000 * t.val + p.val) : ((cfg0.win 1).blk t).view.read (Elt Ideal) A (ix2 p z) = A (ix2 e z) := by
  obtain ⟨-, -, h0, h1, -⟩ := idx_facts t
  show A (((cfg0.win 1).blk t).view.emb (ix2 p z)) = _
  refine congrArg A (funext fun a => Fin.ext ?_)
  match a with
  | ⟨0, _⟩ => show win0_1.index t (0 : Fin 2) * 10000 + 1 * p.val = e.val; omega
  | ⟨1, _⟩ => show win0_1.index t (1 : Fin 2) * 1 + 1 * z.val = z.val; omega

/-- Window 2's one block is the whole array it is cut from. -/
theorem read_whole2 (A : S131x64.Idx → EReal) (t : Fin cfg0.N) (k : Fin 131) (j : Fin 64) :
    ((cfg0.win 2).blk t).view.read (Elt Ideal) A (ix2 k j) = A (ix2 k j) := by
  obtain ⟨-, -, -, -, -, -, h0, h1, -⟩ := idx_facts t
  show A (((cfg0.win 2).blk t).view.emb (ix2 k j)) = _
  refine congrArg A (funext fun a => Fin.ext ?_)
  match a with
  | ⟨0, _⟩ => show win0_2.index t (0 : Fin 2) * 131 + 1 * k.val = k.val; omega
  | ⟨1, _⟩ => show win0_2.index t (1 : Fin 2) * 64 + 1 * j.val = j.val; omega

/-- Window 3's one block is the whole array it is cut from. -/
theorem read_whole3 (A : S1x64.Idx → EReal) (t : Fin cfg0.N) (k : Fin 1) (j : Fin 64) :
    ((cfg0.win 3).blk t).view.read (Elt Ideal) A (ix2 k j) = A (ix2 k j) := by
  obtain ⟨-, -, -, -, -, -, -, -, h0, h1, -⟩ := idx_facts t
  show A (((cfg0.win 3).blk t).view.emb (ix2 k j)) = _
  refine congrArg A (funext fun a => Fin.ext ?_)
  match a with
  | ⟨0, _⟩ => show win0_3.index t (0 : Fin 2) * 1 + 1 * k.val = k.val; omega
  | ⟨1, _⟩ => show win0_3.index t (1 : Fin 2) * 64 + 1 * j.val = j.val; omega

/-- Window 4's one block is the whole array it is cut from. -/
theorem read_whole4 (A : S64x64.Idx → EReal) (t : Fin cfg0.N) (k : Fin 64) (j : Fin 64) :
    ((cfg0.win 4).blk t).view.read (Elt Ideal) A (ix2 k j) = A (ix2 k j) := by
  obtain ⟨-, -, -, -, -, -, -, -, -, -, h0, h1, -⟩ := idx_facts t
  show A (((cfg0.win 4).blk t).view.emb (ix2 k j)) = _
  refine congrArg A (funext fun a => Fin.ext ?_)
  match a with
  | ⟨0, _⟩ => show win0_4.index t (0 : Fin 2) * 64 + 1 * k.val = k.val; omega
  | ⟨1, _⟩ => show win0_4.index t (1 : Fin 2) * 64 + 1 * j.val = j.val; omega

/-- Window 5's one block is the whole array it is cut from. -/
theorem read_whole5 (A : S1x64.Idx → EReal) (t : Fin cfg0.N) (k : Fin 1) (j : Fin 64) :
    ((cfg0.win 5).blk t).view.read (Elt Ideal) A (ix2 k j) = A (ix2 k j) := by
  obtain ⟨-, -, -, -, -, -, -, -, -, -, -, -, h0, h1, -⟩ := idx_facts t
  show A (((cfg0.win 5).blk t).view.emb (ix2 k j)) = _
  refine congrArg A (funext fun a => Fin.ext ?_)
  match a with
  | ⟨0, _⟩ => show win0_5.index t (0 : Fin 2) * 1 + 1 * k.val = k.val; omega
  | ⟨1, _⟩ => show win0_5.index t (1 : Fin 2) * 64 + 1 * j.val = j.val; omega

/-- Window 6's one block is the whole array it is cut from. -/
theorem read_whole6 (A : S64x64.Idx → EReal) (t : Fin cfg0.N) (k : Fin 64) (j : Fin 64) :
    ((cfg0.win 6).blk t).view.read (Elt Ideal) A (ix2 k j) = A (ix2 k j) := by
  obtain ⟨-, -, -, -, -, -, -, -, -, -, -, -, -, -, h0, h1, -⟩ := idx_facts t
  show A (((cfg0.win 6).blk t).view.emb (ix2 k j)) = _
  refine congrArg A (funext fun a => Fin.ext ?_)
  match a with
  | ⟨0, _⟩ => show win0_6.index t (0 : Fin 2) * 64 + 1 * k.val = k.val; omega
  | ⟨1, _⟩ => show win0_6.index t (1 : Fin 2) * 64 + 1 * j.val = j.val; omega

/-- Window 7's one block is the whole array it is cut from. -/
theorem read_whole7 (A : S1x64.Idx → EReal) (t : Fin cfg0.N) (k : Fin 1) (j : Fin 64) :
    ((cfg0.win 7).blk t).view.read (Elt Ideal) A (ix2 k j) = A (ix2 k j) := by
  obtain ⟨-, -, -, -, -, -, -, -, -, -, -, -, -, -, -, -, h0, h1⟩ := idx_facts t
  show A (((cfg0.win 7).blk t).view.emb (ix2 k j)) = _
  refine congrArg A (funext fun a => Fin.ext ?_)
  match a with
  | ⟨0, _⟩ => show win0_7.index t (0 : Fin 2) * 1 + 1 * k.val = k.val; omega
  | ⟨1, _⟩ => show win0_7.index t (1 : Fin 2) * 64 + 1 * j.val = j.val; omega

/-- Writing back a value of the output block whose entry (p, q) is `G` at that entry's place in the array writes
    block `t` of `G`. -/
theorem cut_eq_read (G : S800000x64.Idx → EReal) (t : Fin cfg0.N) (Z : S10000x64.Idx → EReal)
    (hZ : ∀ (p : Fin 10000) (q : Fin 64), Z (ix2 p q) = G (((cfg0.win 8).blk t).view.emb (ix2 p q))) :
    (cfg0.win 8).cut (grid0.coords t) Z = ((cfg0.win 8).blk t).view.read (Elt Ideal) G := by
  refine funext fun (y : S10000x64.Idx) => ?_
  obtain ⟨p, q, rfl⟩ : ∃ (p : Fin 10000) (q : Fin 64), y = ix2 p q := ⟨y 0, y 1, eq_ix2 y⟩
  exact hZ p q

/-- Entry (p, q) of block `t` of the output array is entry (10000·t + p, q) of the array. -/
theorem out_row (t : Fin cfg0.N) (p : Fin 10000) (q : Fin 64) :
    (rowOf (((cfg0.win 8).blk t).view.emb (ix2 p q))).val = 10000 * t.val + p.val
      ∧ colOf (((cfg0.win 8).blk t).view.emb (ix2 p q)) = q := by
  obtain ⟨-, -, -, -, h0, h1, -⟩ := idx_facts t
  refine ⟨?_, Fin.ext ?_⟩
  · show win0_8.index t (0 : Fin 2) * 10000 + 1 * p.val = _; omega
  · show win0_8.index t (1 : Fin 2) * 64 + 1 * q.val = q.val; omega

/-! ## What a point writes back -/

theorem msgArr_apply (c : Dev nD) (i : S800000x64.Idx) : msgArr m c i
    = Cert.Spec.msgRow (fun k => (V m c main_v16 : S800000x131.Idx → EReal) (ix2 (rowOf i) k))
        ((V m c main_v20 : S800000x1.Idx → EReal) (ix2 (rowOf i) 0))
        (fun k j => (V m c main_call7_v0 : S131x64.Idx → EReal) (ix2 k j)) (fun j => (V m c main_call7_v3 : S1x64.Idx → EReal) (ix2 0 j))
        (fun k j => (V m c main_call7_v1 : S64x64.Idx → EReal) (ix2 k j)) (fun j => (V m c main_call7_v4 : S1x64.Idx → EReal) (ix2 0 j))
        (fun k j => (V m c main_call7_v2 : S64x64.Idx → EReal) (ix2 k j)) (fun j => (V m c main_call7_v5 : S1x64.Idx → EReal) (ix2 0 j))
        (colOf i) := rfl

/-- The message is a function of its eight data and the coordinate. -/
theorem msgRow_congr {x x' : Fin 131 → EReal} {a a' : EReal} {W1 W1' : Fin 131 → Fin 64 → EReal} {b1 b1' : Fin 64 → EReal}
    {W2 W2' : Fin 64 → Fin 64 → EReal} {b2 b2' : Fin 64 → EReal} {W3 W3' : Fin 64 → Fin 64 → EReal} {b3 b3' : Fin 64 → EReal}
    {q q' : Fin 64}
    (hx : x = x') (ha : a = a') (hW1 : W1 = W1') (hb1 : b1 = b1') (hW2 : W2 = W2') (hb2 : b2 = b2') (hW3 : W3 = W3') (hb3 : b3 = b3')
    (hq : q = q') : Cert.Spec.msgRow x a W1 b1 W2 b2 W3 b3 q = Cert.Spec.msgRow x' a' W1' b1' W2' b2' W3' b3' q' := by
  subst hx ha hW1 hb1 hW2 hb2 hW3 hb3 hq; rfl

/-- Entry (p, q) of the body's value at point `t` is the message of feature row 10000·t + p, coordinate q. -/
theorem entry_eq (c : Dev nD) (t : Fin cfg0.N) (p : Fin 10000) (q : Fin 64) :
    k0_pay1 (F := Ideal) (iblk m c 0 t) (iblk m c 2 t) (iblk m c 3 t) (iblk m c 4 t) (iblk m c 5 t) (iblk m c 6 t)
      (iblk m c 7 t) (iblk m c 1 t) (ix2 p q) = msgArr m c (((cfg0.win 8).blk t).view.emb (ix2 p q)) := by
  obtain ⟨hrow, hcol⟩ := out_row t p q
  refine (HV.pay_apply (iblk m c 0 t) (iblk m c 2 t) (iblk m c 3 t) (iblk m c 4 t) (iblk m c 5 t) (iblk m c 6 t)
      (iblk m c 7 t) (iblk m c 1 t) p q).trans ?_
  rw [msgArr_apply]
  exact msgRow_congr (funext fun k => read_feat (V m c main_v16) t p k _ hrow) (read_mask (V m c main_v20) t p 0 _ hrow)
    (funext fun k => funext fun j => read_whole2 (V m c main_call7_v0) t k j) (funext fun j => read_whole3 (V m c main_call7_v3) t 0 j)
    (funext fun k => funext fun j => read_whole4 (V m c main_call7_v1) t k j) (funext fun j => read_whole5 (V m c main_call7_v4) t 0 j)
    (funext fun k => funext fun j => read_whole6 (V m c main_call7_v2) t k j) (funext fun j => read_whole7 (V m c main_call7_v5) t 0 j)
    hcol.symm

/-- Point `t` writes back block `t` of the message array. -/
theorem flushed_eq (c : Dev nD) (t : Fin cfg0.N) :
    (dats m 0 c).flushed 8 t = ((cfg0.win 8).blk t).view.read (Elt Ideal) (msgArr m c) := by
  show (cfg0.win 8).cut (grid0.coords t) ((dats m 0 c).after 8 t) = _
  rw [after0_8]
  unfold outBlk
  rw [View.canon_unit_zero origin2]
  simp only [View.ld_unit_zero (S := S10000x131) origin2, View.ld_unit_zero (S := S10000x1) origin2,
    View.ld_unit_zero (S := S131x64) origin2, View.ld_unit_zero (S := S1x64) origin2, View.ld_unit_zero (S := S64x64) origin2]
  exact cut_eq_read (msgArr m c) t _ (entry_eq m c t)

/-! ## The eighty blocks tile the array -/

/-- An entry of the message array is in point `t`'s block iff each coordinate is in the block's range on its axis. -/
theorem mem_blk (t : Fin cfg0.N) (i : S800000x64.Idx) :
    i ∈ ((cfg0.win 8).blk t).view.set ↔ ∀ a : Fin 2, win0_8.index t a * S10000x64.size a ≤ (i a).val
      ∧ (i a).val < win0_8.index t a * S10000x64.size a + S10000x64.size a := by
  show i ∈ ((View.whole main_v21).slice (win0_8.rect t)).set ↔ _
  rw [View.set_slice_whole, Rect.mem_set_unit]
  exact Iff.rfl

/-- Row `r` is in the block of point `r / 10000`, which writes back like every point. -/
theorem cover (i : S800000x64.Idx) : ∃ t : Fin cfg0.N, (cfg0.win 8).flush t = true ∧ i ∈ ((cfg0.win 8).blk t).view.set := by
  have hi0 : (i 0).val < 800000 := (i 0).isLt
  have hi1 : (i 1).val < 64 := (i 1).isLt
  have hlt : (i 0).val / 10000 < cfg0.N := by rw [show cfg0.N = 80 from N_0]; omega
  obtain ⟨-, -, -, -, h0, h1, -⟩ := idx_facts ⟨(i 0).val / 10000, hlt⟩
  have h0' : win0_8.index ⟨(i 0).val / 10000, hlt⟩ (0 : Fin 2) = (i 0).val / 10000 := h0
  refine ⟨⟨(i 0).val / 10000, hlt⟩, flush0_8 _, ?_⟩
  rw [mem_blk]
  intro a
  match a with
  | ⟨0, _⟩ =>
    show win0_8.index ⟨(i 0).val / 10000, hlt⟩ (0 : Fin 2) * 10000 ≤ (i 0).val
      ∧ (i 0).val < win0_8.index ⟨(i 0).val / 10000, hlt⟩ (0 : Fin 2) * 10000 + 10000
    omega
  | ⟨1, _⟩ =>
    show win0_8.index ⟨(i 0).val / 10000, hlt⟩ (1 : Fin 2) * 64 ≤ (i 1).val
      ∧ (i 1).val < win0_8.index ⟨(i 0).val / 10000, hlt⟩ (1 : Fin 2) * 64 + 64
    omega

/-- So the message array after the region is `msgArr`. -/
theorem final (c : Dev nD) : (dats m 0 c).arrAt 8 cfg0.N = msgArr m c :=
  (dats m 0 c).arrAt_eq_of_cover 8 (msgArr m c) (fun t _ => flushed_eq m c t) cover

/-! ## The host tail -/

/-- After the region the output array holds `msgArr` and the destination indices are as the region found them; the
    tail makes the zero array, broadcasts the destinations to a column, and scatter-adds the one into the other. -/
theorem tail_value (c : Dev nD) :
    Pipeline.afterTail₀ cfgs (dats m) 0 (V0 m) [hostOps1] c main_v24
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (V m c main_v3 : S800000.Idx → BitVec 32))
          (msgArr m c) := by
  unfold Pipeline.afterTail₀
  have h3 : Pipeline.withArrays (cfgs 0).spec c (V0 m c) (fun w => (dats m 0 c).arrAt w (cfgs 0).N) (Proc.devRef .tc main_v3)
      = (V m c main_v3 : S800000.Idx → BitVec 32) :=
    Pipeline.withArrays_of_ne _ c (V0 m c) _ main_v3 (by exact (by decide : ∀ w, Pipeline.arrRef spec0 w ≠ main_v3))
  have h21 : Pipeline.withArrays (cfgs 0).spec c (V0 m c) (fun w => (dats m 0 c).arrAt w (cfgs 0).N) (Proc.devRef .tc main_v21)
      = msgArr m c :=
    (Pipeline.withArrays_arr spec0 launch0.win.arr_inj c _ _ 8).trans (final m c)
  generalize Pipeline.withArrays (cfgs 0).spec c (V0 m c) (fun w => (dats m 0 c).arrAt w (cfgs 0).N) = W at h3 h21 ⊢
  rw [← h3, ← h21]
  show StableHlo.after hostOps1 W (Proc.devRef .tc main_v24) = _
  after_results
  all_goals rfl

/-- The run with the result named: the scatter-add, into zeros, by the destinations, of the message array. -/
theorem run_value : θ_run defs (onTc (τ := τ) (main (F := Ideal))) ⟨m, fun _ => 0, ρ⟩ (fun r => ∀ c : Dev nD,
      r.2.mem ((c.tc : Thread nD τ).loc main_v24)
        = Host.scatterAdd scatter_S50000x64_S800000x1_S800000x64_1_0_0_1
            (broadcastInDim S50000x64 ![] bcast_S_S50000x64 (constant (F := Ideal) S_ .f32 0x00000000#32))
            (broadcastInDim S800000x1 ![0] bcast_S800000_S800000x1_0 (V m c main_v3 : S800000.Idx → BitVec 32))
            (msgArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).2 main_v24 (Pipeline.mem_restRefs_of main_v24 (by decide) (by decide))).trans (tail_value m c),
    arg_end (F := Ideal) m h c main_arg0 (by decide) (by decide) (by decide),
    arg_end (F := Ideal) m h c main_arg1 (by decide) (by decide) (by decide),
    arg_end (F := Ideal) m h c main_arg2 (by decide) (by decide) (by decide),
    arg_end (F := Ideal) m h c main_arg3 (by decide) (by decide) (by decide),
    arg_end (F := Ideal) m h c main_arg4 (by decide) (by decide) (by decide),
    arg_end (F := Ideal) m h c main_arg5 (by decide) (by decide) (by decide),
    arg_end (F := Ideal) m h c main_arg6 (by decide) (by decide) (by decide),
    arg_end (F := Ideal) m h c main_arg7 (by decide) (by decide) (by decide),
    arg_end (F := Ideal) m h c main_arg8 (by decide) (by decide) (by decide),
    arg_end (F := Ideal) m h c main_arg9 (by decide) (by decide) (by decide),
    arg_end (F := Ideal) m h c main_arg10 (by decide) (by decide) (by decide)⟩)
    (run_main (F := Ideal) m ρ)

end Cert.KernelIdeal.HVal

end
-- ==== Proof.TakeMask.lean ====
/-
  The kernel's gathers guard themselves: an index is first wrapped (a negative one gets the table's length added),
  then tested against the table's range, and a row whose index fails the test is replaced by a fill value. Where
  every index is already a row number, 0 ≤ index < 50000, the wrap leaves it as it is, both range tests hold, their
  conjunction reduced over the one-element axis is 1 at every row, and a select on an all-ones mask is its first
  branch. These are statements about arrays of words and of bits only: no program, no memory.
-/
import proofs.«427009_j16535624090328_3_alg».proof.KernelIdeal
import proofs.«427009_j16535624090328_3_alg».proof.Proof.Spec
import Idealize.ShloMosaic.Lib.Affine
import Idealize.ShloMosaic.PureOps.Reduce

noncomputable section

namespace Cert.KernelIdeal.Take

open Idealize.ShloMosaic
open Cert.KernelIdeal

/-- The range condition on one word, read as integers: 0 ≤ w < 50000. -/
theorem toInt_range {w : BitVec 32} (h : IntOp.cmpi .sge w 0#32 = 1#1 ∧ IntOp.cmpi .slt w 50000#32 = 1#1) :
    0 ≤ w.toInt ∧ w.toInt < 50000 := by
  obtain ⟨h1, h2⟩ := h
  rw [IntOp.cmpi_sge] at h1
  rw [IntOp.cmpi_slt] at h2
  have e0 : (0#32 : BitVec 32).toInt = 0 := by decide
  have e5 : (50000#32 : BitVec 32).toInt = 50000 := by decide
  rw [e0] at h1
  rw [e5] at h2
  exact ⟨h1, h2⟩

/-- A word in range is not negative, so the wrap keeps it. -/
theorem wrap_word {w : BitVec 32} (h : IntOp.cmpi .sge w 0#32 = 1#1 ∧ IntOp.cmpi .slt w 50000#32 = 1#1) :
    Scalar.select (IntOp.cmpi .slt w 0#32) (IntOp.addi w 50000#32) w = w := by
  have hr := toInt_range h
  have hne : ¬ IntOp.cmpi .slt w 0#32 = 1#1 := by
    rw [IntOp.cmpi_slt]
    have e0 : (0#32 : BitVec 32).toInt = 0 := by decide
    rw [e0]
    omega
  exact if_neg hne

/-- A word in range passes both range tests. -/
theorem inrange_word {w : BitVec 32} (h : IntOp.cmpi .sge w 0#32 = 1#1 ∧ IntOp.cmpi .slt w 50000#32 = 1#1) :
    IntOp.andi (IntOp.cmpi .sge w 0#32) (IntOp.cmpi .sle w 49999#32) = 1#1 := by
  have hr := toInt_range h
  refine IntOp.andi_eq_one.2 ⟨h.1, ?_⟩
  rw [IntOp.cmpi_sle]
  have e9 : (49999#32 : BitVec 32).toInt = 49999 := by decide
  rw [e9]
  omega

/-- A reduction by `and` from 1 over an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) :
    Host.reduce IntOp.andi x init h hu = fun _ => 1#1 := by
  funext j
  rw [Host.reduce_eq_foldl, hi]
  generalize (((List.finRange s.numel).map s.rowMajor.symm).filter fun i => h.drop i = j) = l
  have e11 : IntOp.andi (1#1 : BitVec 1) 1#1 = 1#1 := by decide
  induction l with
  | nil => rfl
  | cons a l ih => rw [List.foldl_cons, hx a, e11]; exact ih

/-- The wrap of an array of row numbers is the array. -/
theorem wrap_eq (idx : S800000.Idx → BitVec 32)
    (hidx : ∀ i, IntOp.cmpi .sge (idx i) 0#32 = 1#1 ∧ IntOp.cmpi .slt (idx i) 50000#32 = 1#1)
    (h0 : S_.BroadcastsInDim S800000 ![]) :
    select (cmpi .slt idx (broadcastInDim S800000 ![] h0 (constantI S_ 32 0#32)))
        (addi idx (broadcastInDim S800000 ![] h0 (constantI S_ 32 50000#32))) idx = idx := by
  funext i
  exact wrap_word (hidx i)

/-- The gather's validity mask over an array of row numbers is all ones. -/
theorem mask_eq_one (idx : S800000.Idx → BitVec 32)
    (hidx : ∀ i, IntOp.cmpi .sge (idx i) 0#32 = 1#1 ∧ IntOp.cmpi .slt (idx i) 50000#32 = 1#1)
    (h0 : S_.BroadcastsInDim S800000 ![]) (h1 : S800000.BroadcastsInDim S800000x1 ![0])
    (h2 : S_.BroadcastsInDim S800000x1 ![]) (h3 : S1.BroadcastsInDim S1x1 ![1])
    (h4 : S1x1.BroadcastsInDim S800000x1 ![0, 1]) (hr : S800000x1.ReducesTo [1] S800000) (hu : 0 < S_.numel) :
    Host.reduce IntOp.andi
        (andi
          (cmpi .sge
            (broadcastInDim S800000x1 ![0] h1
              (select (cmpi .slt idx (broadcastInDim S800000 ![] h0 (constantI S_ 32 0#32)))
                (addi idx (broadcastInDim S800000 ![] h0 (constantI S_ 32 50000#32))) idx))
            (broadcastInDim S800000x1 ![] h2 (constantI S_ 32 0#32)))
          (cmpi .sle
            (broadcastInDim S800000x1 ![0] h1
              (select (cmpi .slt idx (broadcastInDim S800000 ![] h0 (constantI S_ 32 0#32)))
                (addi idx (broadcastInDim S800000 ![] h0 (constantI S_ 32 50000#32))) idx))
            (broadcastInDim S800000x1 ![0, 1] h4 (broadcastInDim S1x1 ![1] h3 (constantI S1 32 49999#32)))))
        (constantI S_ 1 1#1) hr hu = fun _ => 1#1 := by
  rw [wrap_eq idx hidx h0]
  refine reduce_andi_ones _ _ hr hu (fun k => ?_) (fun _ => rfl)
  exact inrange_word (hidx _)

/-- A select on an all-ones mask is its first branch. -/
theorem select_ones {s : Shape} {α : Type} (a b : s.Idx → α) : select (fun _ => (1#1 : BitVec 1)) a b = a := by
  funext i
  show Scalar.select (1#1 : BitVec 1) (a i) (b i) = a i
  unfold Scalar.select
  exact if_pos rfl

/-- The same with the mask broadcast along further axes. -/
theorem select_bcast_ones {s t : Shape} {α : Type} (dims : Fin s.rank → Fin t.rank) (h : s.BroadcastsInDim t dims)
    (a b : t.Idx → α) : select (broadcastInDim t dims h (fun _ => (1#1 : BitVec 1))) a b = a := by
  funext i
  show Scalar.select (1#1 : BitVec 1) (a i) (b i) = a i
  unfold Scalar.select
  exact if_pos rfl

end Cert.KernelIdeal.Take

end
-- ==== Proof.KIPrefix.lean ====
/-
  What the region finds in its arrays, as functions of the launch memory. Before the region @main slices the edge
  list into sources and destinations, gathers node rows, phases, couplings and liveness by them, joins
  [h_dst | h_src | sin Δθ | cos Δθ | K_dst] into the 131-wide feature array (narrowed to the half format: exact
  here), multiplies the two liveness gathers into the mask column, narrows the three weight matrices and reshapes
  the three biases into rows. Its gathers replace an out-of-range row by a fill value; where every edge-list entry
  is a node number no row is out of range, and each gather is the plain one the reference performs.
-/
import proofs.«427009_j16535624090328_3_alg».proof.Proof.KIEntry
import proofs.«427009_j16535624090328_3_alg».proof.Proof.Gen.ReferenceIdeal.Read
import proofs.«427009_j16535624090328_3_alg».proof.Proof.Spec
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«427009_j16535624090328_3_alg».proof.Proof.TakeMask

set_option maxRecDepth 16384

noncomputable section

namespace Cert.KernelIdeal.HP

open Idealize.ShloMosaic Idealize.ShloMosaic.TcCoe Idealize.ShloMosaic.ValueIdx
open Idealize.SL Idealize.SL.Sem
open Cert.KernelIdeal Cert.KernelIdeal.Gen Cert.KernelIdeal.HF

namespace Pre

section Stretches

variable {F : FTy → Type} [FloatOps F]

/-- Running two lines of operations one after the other is running their concatenation. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => simp only [List.cons_append, StableHlo.after_cons, ih]

/-- The arrays that, once the first stretch has run, nothing before the region writes again: the eleven
    arguments and the two rows of the edge list. -/
def keptRefs : List (Ref sig .tc) :=
  [main_arg0, main_arg1, main_arg2, main_arg3, main_arg4, main_arg5, main_arg6, main_arg7, main_arg8, main_arg9,
   main_arg10, main_v1, main_v3]

/-- A line of operations none of which writes a kept array. -/
def Keeps (ops : List (HloOp τ sig (Elt F))) : Prop :=
  ∀ op ∈ ops, ∀ r ∈ keptRefs, Proc.devRef (τ := τ) .tc r ∉ op.writes

/-- An operation whose one written buffer is no kept array writes no kept array. -/
theorem keeps_one {y : Ref sig .tc} (hy : y ∉ keptRefs) :
    ∀ r ∈ keptRefs, Proc.devRef (τ := τ) .tc r ∉ ({Proc.devRef .tc y} : Finset (DevRef τ sig)) :=
  fun r hr h => hy (Proc.devRef_injective _ (Finset.mem_singleton.mp h) ▸ hr)

/-- Through such a line a kept array keeps its contents. -/
theorem Keeps.after {ops : List (HloOp τ sig (Elt F))} (h : Keeps ops) {r : Ref sig .tc} (hr : r ∈ keptRefs)
    (W : Valuation τ sig (Elt F)) : StableHlo.after ops W (Proc.devRef .tc r) = W (Proc.devRef .tc r) :=
  StableHlo.after_of_forall_not_mem _ _ fun op hop => h op hop r hr

/-- Each later stretch writes only buffers of its own. -/
local macro "keeps_stretch" : tactic => `(tactic| (
  refine List.forall_iff_forall_mem.mp ?_
  simp only [hostOps0_1, hostOps0_2, hostOps0_3, hostOps0_4, hostOps0_5, hostOps0_6, hostOps0_7, hostOps0_8, hostOps0_9,
    hostOps0_10, hostOps0_11, List.Forall, StableHlo.nullary_writes, StableHlo.unary_writes, StableHlo.binary_writes,
    StableHlo.ternary_writes, StableHlo.reshape_writes, StableHlo.nary_writes]
  repeat' apply And.intro
  all_goals exact keeps_one (by decide)))

theorem keeps_1 : Keeps (hostOps0_1 : List (HloOp τ sig (Elt F))) := by keeps_stretch
theorem keeps_2 : Keeps (hostOps0_2 : List (HloOp τ sig (Elt F))) := by keeps_stretch
theorem keeps_3 : Keeps (hostOps0_3 : List (HloOp τ sig (Elt F))) := by keeps_stretch
theorem keeps_4 : Keeps (hostOps0_4 : List (HloOp τ sig (Elt F))) := by keeps_stretch
theorem keeps_5 : Keeps (hostOps0_5 : List (HloOp τ sig (Elt F))) := by keeps_stretch
theorem keeps_6 : Keeps (hostOps0_6 : List (HloOp τ sig (Elt F))) := by keeps_stretch
theorem keeps_7 : Keeps (hostOps0_7 : List (HloOp τ sig (Elt F))) := by keeps_stretch
theorem keeps_8 : Keeps (hostOps0_8 : List (HloOp τ sig (Elt F))) := by keeps_stretch
theorem keeps_9 : Keeps (hostOps0_9 : List (HloOp τ sig (Elt F))) := by keeps_stretch
theorem keeps_10 : Keeps (hostOps0_10 : List (HloOp τ sig (Elt F))) := by keeps_stretch
theorem keeps_11 : Keeps (hostOps0_11 : List (HloOp τ sig (Elt F))) := by keeps_stretch

/-- The first stretch leaves in `main_v3` row 1 of the edge list. -/
theorem h0_v3 (W : Valuation τ sig (Elt F)) :
    StableHlo.after hostOps0 W (Proc.devRef .tc main_v3)
      = Cert.ReferenceIdeal.Read.val_main_v3 (F := F) (W (Proc.devRef .tc main_arg2)) := by
  simp only [hostOps0]
  after_results
  rfl

/-- The first stretch leaves in `main_v1` row 0 of the edge list. -/
theorem h0_v1 (W : Valuation τ sig (Elt F)) :
    StableHlo.after hostOps0 W (Proc.devRef .tc main_v1)
      = Cert.ReferenceIdeal.Read.val_main_v1 (F := F) (W (Proc.devRef .tc main_arg2)) := by
  simp only [hostOps0]
  after_results
  rfl

/-- The first stretch writes no argument. -/
theorem h0_arg {r : Ref sig .tc} (hr : r ∈ keptRefs) (hr1 : r ≠ main_v1) (hr3 : r ≠ main_v3) (W : Valuation τ sig (Elt F)) :
    StableHlo.after hostOps0 W (Proc.devRef .tc r) = W (Proc.devRef .tc r) := by
  refine StableHlo.after_of_forall_not_mem _ _ (List.forall_iff_forall_mem.mp ?_)
  simp only [hostOps0, List.Forall, StableHlo.unary_writes, StableHlo.reshape_writes, Finset.mem_singleton]
  simp only [keptRefs, List.mem_cons, List.not_mem_nil, or_false] at hr
  rcases hr with rfl | rfl | rfl | rfl | rfl | rfl | rfl | rfl | rfl | rfl | rfl | rfl | rfl
  all_goals first
    | exact absurd rfl hr1
    | exact absurd rfl hr3
    | (repeat' apply And.intro) <;> exact StableHlo.devRef_ne_of_ne (by decide)

variable (m : (ℓ : Loc nD τ sig) → Buf (Elt F) ℓ)

/-- The contents at the region's entry, stretch by stretch. -/
theorem V0_split (c : Dev nD) :
    V0 m c = StableHlo.after hostOps0_11 (StableHlo.after hostOps0_10 (StableHlo.after hostOps0_9 (StableHlo.after hostOps0_8
      (StableHlo.after hostOps0_7 (StableHlo.after hostOps0_6 (StableHlo.after hostOps0_5 (StableHlo.after hostOps0_4
      (StableHlo.after hostOps0_3 (StableHlo.after hostOps0_2 (StableHlo.after hostOps0_1 (StableHlo.after hostOps0
        (fun b => m (c, b))))))))))))) := by
  simp only [V0, pre, List.flatten_cons, List.flatten_nil, List.append_nil, after_append]

/-- The contents after the first stretch. -/
def E0 (c : Dev nD) : Valuation τ sig (Elt F) := StableHlo.after hostOps0 (fun b => m (c, b))

/-- The contents after the first eight stretches: what the two liveness gathers start from. -/
def E7 (c : Dev nD) : Valuation τ sig (Elt F) :=
  StableHlo.after hostOps0_7 (StableHlo.after hostOps0_6 (StableHlo.after hostOps0_5 (StableHlo.after hostOps0_4
    (StableHlo.after hostOps0_3 (StableHlo.after hostOps0_2 (StableHlo.after hostOps0_1 (E0 m c)))))))

theorem V0_split' (c : Dev nD) :
    V0 m c = StableHlo.after hostOps0_11 (StableHlo.after hostOps0_10 (StableHlo.after hostOps0_9 (StableHlo.after hostOps0_8 (E7 m c)))) :=
  V0_split m c

theorem E0_arg (c : Dev nD) {r : Ref sig .tc} (hr : r ∈ keptRefs) (hr1 : r ≠ main_v1) (hr3 : r ≠ main_v3) :
    E0 m c (Proc.devRef .tc r) = m (c, Proc.devRef .tc r) := h0_arg hr hr1 hr3 _

theorem E7_kept (c : Dev nD) {r : Ref sig .tc} (hr : r ∈ keptRefs) : E7 m c (Proc.devRef .tc r) = E0 m c (Proc.devRef .tc r) := by
  unfold E7
  rw [keeps_7.after hr, keeps_6.after hr, keeps_5.after hr, keeps_4.after hr, keeps_3.after hr, keeps_2.after hr, keeps_1.after hr]

/-- Before the last stretch a kept array holds what the first stretch left in it. -/
theorem E10_kept (c : Dev nD) {r : Ref sig .tc} (hr : r ∈ keptRefs) :
    StableHlo.after hostOps0_10 (StableHlo.after hostOps0_9 (StableHlo.after hostOps0_8 (E7 m c))) (Proc.devRef .tc r)
      = E0 m c (Proc.devRef .tc r) := by
  rw [keeps_10.after hr, keeps_9.after hr, keeps_8.after hr, E7_kept m c hr]

end Stretches

section Alive

variable {F : FTy → Type} [FloatOps F]

/-- Contents moved to a typed reference's own buffer type and back are the contents. -/
theorem ofBuf_toBuf {Val : EltTy → Type} {T : BufTy} (x : StableHlo.TRef sig T) (v : T.Contents Val) :
    x.ofBuf (x.toBuf v) = v := by
  obtain ⟨r, h, a, b⟩ := x
  subst h
  rfl

/-- At a literal reference the move to its buffer type is the identity. -/
theorem toBuf_v17 (v : (⟨S800000, .f32⟩ : BufTy).Contents (Elt F)) :
    ((StableHlo.TRef.of (T := ⟨S800000, .f32⟩) main_v17).toBuf v : FVec F S800000 .f32) = v := rfl
theorem toBuf_v18 (v : (⟨S800000, .f32⟩ : BufTy).Contents (Elt F)) :
    ((StableHlo.TRef.of (T := ⟨S800000, .f32⟩) main_v18).toBuf v : FVec F S800000 .f32) = v := rfl
theorem ofBuf_arg4 (v : (Proc.devRef (τ := τ) .tc main_arg4).ty.Contents (Elt F)) :
    (StableHlo.TRef.of (T := ⟨S50000, .f32⟩) main_arg4).ofBuf v = v := rfl
theorem ofBuf_v1 (v : (Proc.devRef (τ := τ) .tc main_v1).ty.Contents (Elt F)) :
    (StableHlo.TRef.of (T := ⟨S800000, .i32⟩) main_v1).ofBuf v = v := rfl
theorem ofBuf_v3 (v : (Proc.devRef (τ := τ) .tc main_v3).ty.Contents (Elt F)) :
    (StableHlo.TRef.of (T := ⟨S800000, .i32⟩) main_v3).ofBuf v = v := rfl

/-- The row a gather reads for each edge: the entry itself, or counted from the end when negative. -/
def wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Which edges' rows are node numbers. -/
def inRange (w : IVec S800000x1 32) : IVec S800000 1 :=
  Host.reduce IntOp.andi
    (andi (cmpi .sge w (broadcastInDim S800000x1 ![] bcast_S_S800000x1 (constantI S_ 32 0#32)))
      (cmpi .sle w (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The kernel's gather of a vector's entries by an index row: the entry where the row is a node number, the fill
    value elsewhere. -/
def takeVec (x : FVec F S50000 .f32) (idx : IVec S800000 32) : FVec F S800000 .f32 :=
  select (inRange (wrapIdx idx)) (Host.gather gather_S50000_S800000x1_S800000_n_0_n_n_0_1_1 x (wrapIdx idx))
    (broadcastInDim S800000 ![] bcast_S_S800000 (constant S_ .f32 0x7FC00000#32))

/-- The ninth stretch gathers liveness by the source row. -/
theorem h8_v17 (W : Valuation τ sig (Elt F)) :
    StableHlo.after hostOps0_8 W (Proc.devRef .tc main_v17)
      = takeVec (F := F) (W (Proc.devRef .tc main_arg4)) (W (Proc.devRef .tc main_v1)) := by
  simp only [hostOps0_8]
  after_results
  simp only [ofBuf_toBuf]
  rw [toBuf_v17, ofBuf_arg4, ofBuf_v1]
  rfl

/-- The tenth gathers it by the destination row. -/
theorem h9_v18 (W : Valuation τ sig (Elt F)) :
    StableHlo.after hostOps0_9 W (Proc.devRef .tc main_v18)
      = takeVec (F := F) (W (Proc.devRef .tc main_arg4)) (W (Proc.devRef .tc main_v3)) := by
  simp only [hostOps0_9]
  after_results
  simp only [ofBuf_toBuf]
  rw [toBuf_v18, ofBuf_arg4, ofBuf_v3]
  rfl

/-- A buffer a stretch does not write keeps its contents. -/
local macro "untouched" : tactic => `(tactic| (
  refine StableHlo.after_of_forall_not_mem _ _ (List.forall_iff_forall_mem.mp ?_)
  simp only [hostOps0_9, hostOps0_11, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem h9_v17 (W : Valuation τ sig (Elt F)) :
    StableHlo.after hostOps0_9 W (Proc.devRef .tc main_v17) = W (Proc.devRef .tc main_v17) := by untouched
theorem h11_v20 (W : Valuation τ sig (Elt F)) :
    StableHlo.after hostOps0_11 W (Proc.devRef .tc main_v20) = W (Proc.devRef .tc main_v20) := by untouched

/-- The eleventh multiplies the two and makes the product a column. -/
theorem h10_v20 (W : Valuation τ sig (Elt F)) :
    StableHlo.after hostOps0_10 W (Proc.devRef .tc main_v20)
      = broadcastInDim S800000x1 ![0] bcast_S800000_S800000x1_0
          (mulf (W (Proc.devRef .tc main_v17)) (W (Proc.devRef .tc main_v18))) := by
  simp only [hostOps0_10]
  after_results

/-- Where every index is a node number the guarded gather is the plain one. -/
theorem takeVec_eq (x : FVec F S50000 .f32) (idx : IVec S800000 32)
    (hidx : ∀ i, IntOp.cmpi .sge (idx i) 0#32 = 1#1 ∧ IntOp.cmpi .slt (idx i) 50000#32 = 1#1) :
    takeVec x idx = Host.gather gather_S50000_S800000x1_S800000_n_0_n_n_0_1_1 x (wrapIdx idx) := by
  unfold takeVec inRange wrapIdx
  rw [Cert.KernelIdeal.Take.mask_eq_one idx hidx]
  exact Cert.KernelIdeal.Take.select_ones _ _

/-- Both rows of an edge list of node numbers are rows of node numbers. -/
theorem rows_ok (x2 : (⟨S2x800000, .i32⟩ : BufTy).Contents (Elt F)) (h : Cert.Spec.IdxOk x2) :
    (∀ i, IntOp.cmpi .sge (Cert.ReferenceIdeal.Read.val_main_v1 (F := F) x2 i) 0#32 = 1#1
        ∧ IntOp.cmpi .slt (Cert.ReferenceIdeal.Read.val_main_v1 (F := F) x2 i) 50000#32 = 1#1)
      ∧ (∀ i, IntOp.cmpi .sge (Cert.ReferenceIdeal.Read.val_main_v3 (F := F) x2 i) 0#32 = 1#1
        ∧ IntOp.cmpi .slt (Cert.ReferenceIdeal.Read.val_main_v3 (F := F) x2 i) 50000#32 = 1#1) := by
  refine ⟨fun i => ?_, fun i => ?_⟩
  · rw [Cert.ReferenceIdeal.Read.val_main_v1_apply, Cert.ReferenceIdeal.Read.val_main_v0_apply]
    exact h _
  · rw [Cert.ReferenceIdeal.Read.val_main_v3_apply, Cert.ReferenceIdeal.Read.val_main_v2_apply]
    exact h _

variable (m : (ℓ : Loc nD τ sig) → Buf (Elt F) ℓ)

/-- The mask column at the region's entry, read back through the last four stretches to the launch memory. -/
theorem alive_read (c : Dev nD) :
    V0 m c (Proc.devRef .tc main_v20)
      = broadcastInDim S800000x1 ![0] bcast_S800000_S800000x1_0
          (mulf
            (takeVec (F := F) (m (c, Proc.devRef .tc main_arg4))
              (Cert.ReferenceIdeal.Read.val_main_v1 (F := F) (m (c, Proc.devRef .tc main_arg2))))
            (takeVec (F := F) (m (c, Proc.devRef .tc main_arg4))
              (Cert.ReferenceIdeal.Read.val_main_v3 (F := F) (m (c, Proc.devRef .tc main_arg2))))) := by
  rw [V0_split', h11_v20, h10_v20, h9_v17, h9_v18, h8_v17, keeps_8.after (r := main_arg4) (by decide),
    keeps_8.after (r := main_v3) (by decide), E7_kept m c (r := main_arg4) (by decide), E7_kept m c (r := main_v1) (by decide),
    E7_kept m c (r := main_v3) (by decide), E0_arg m c (r := main_arg4) (by decide) (by decide) (by decide)]
  unfold E0
  rw [h0_v1, h0_v3]

end Alive

section Last

/-- The last stretch narrows each weight matrix to the half format: on the extended reals, nothing. -/
theorem h11_w1 (W : Valuation τ sig (Elt Ideal)) :
    (StableHlo.after hostOps0_11 W (Proc.devRef .tc main_call7_v0) : S131x64.Idx → EReal) = W (Proc.devRef .tc main_arg5) := by
  simp only [hostOps0_11]
  after_results
  rfl
theorem h11_w2 (W : Valuation τ sig (Elt Ideal)) :
    (StableHlo.after hostOps0_11 W (Proc.devRef .tc main_call7_v1) : S64x64.Idx → EReal) = W (Proc.devRef .tc main_arg7) := by
  simp only [hostOps0_11]
  after_results
  rfl
theorem h11_w3 (W : Valuation τ sig (Elt Ideal)) :
    (StableHlo.after hostOps0_11 W (Proc.devRef .tc main_call7_v2) : S64x64.Idx → EReal) = W (Proc.devRef .tc main_arg9) := by
  simp only [hostOps0_11]
  after_results
  rfl

/-- It lays each bias out as a one-row matrix: entry (0, j) is entry j. -/
theorem h11_b1 (W : Valuation τ sig (Elt Ideal)) (j : Fin 64) :
    (StableHlo.after hostOps0_11 W (Proc.devRef .tc main_call7_v3) : S1x64.Idx → EReal) (ix2 0 j)
      = (W (Proc.devRef .tc main_arg6) : S64.Idx → EReal) (ix1 j) := by
  simp only [hostOps0_11]
  after_results
  show shapeCast S1x64 (W (Proc.devRef .tc main_arg6) : S64.Idx → EReal) shapeCasts_S64_S1x64 (ix2 0 j) = _
  refine shapeCast_apply _ _ _ _ ?_
  show (S64.rowMajor (ix1 j)).val = (S1x64.rowMajor (ix2 0 j)).val
  rw [Shape.rowMajor_val_one, Shape.rowMajor_val_two]
  show j.val = 0 * 64 + j.val
  omega
theorem h11_b2 (W : Valuation τ sig (Elt Ideal)) (j : Fin 64) :
    (StableHlo.after hostOps0_11 W (Proc.devRef .tc main_call7_v4) : S1x64.Idx → EReal) (ix2 0 j)
      = (W (Proc.devRef .tc main_arg8) : S64.Idx → EReal) (ix1 j) := by
  simp only [hostOps0_11]
  after_results
  show shapeCast S1x64 (W (Proc.devRef .tc main_arg8) : S64.Idx → EReal) shapeCasts_S64_S1x64 (ix2 0 j) = _
  refine shapeCast_apply _ _ _ _ ?_
  show (S64.rowMajor (ix1 j)).val = (S1x64.rowMajor (ix2 0 j)).val
  rw [Shape.rowMajor_val_one, Shape.rowMajor_val_two]
  show j.val = 0 * 64 + j.val
  omega
theorem h11_b3 (W : Valuation τ sig (Elt Ideal)) (j : Fin 64) :
    (StableHlo.after hostOps0_11 W (Proc.devRef .tc main_call7_v5) : S1x64.Idx → EReal) (ix2 0 j)
      = (W (Proc.devRef .tc main_arg10) : S64.Idx → EReal) (ix1 j) := by
  simp only [hostOps0_11]
  after_results
  show shapeCast S1x64 (W (Proc.devRef .tc main_arg10) : S64.Idx → EReal) shapeCasts_S64_S1x64 (ix2 0 j) = _
  refine shapeCast_apply _ _ _ _ ?_
  show (S64.rowMajor (ix1 j)).val = (S1x64.rowMajor (ix2 0 j)).val
  rw [Shape.rowMajor_val_one, Shape.rowMajor_val_two]
  show j.val = 0 * 64 + j.val
  omega

end Last

end Pre

open Pre

variable (m : (ℓ : Loc nD τ sig) → Buf (Elt Ideal) ℓ)

/-- The mask column the region reads is the reference's. -/
theorem V_alive (c : Dev nD) (hidx : Cert.Spec.IdxOk (m ((c.tc : Thread nD τ).loc main_arg2))) :
    (V m c main_v20 : S800000x1.Idx → EReal) = Cert.ReferenceIdeal.Read.val_main_v75 (F := Ideal) (m ((c.tc : Thread nD τ).loc main_arg2)) (m ((c.tc : Thread nD τ).loc main_arg4)) := by
  obtain ⟨h1, h3⟩ := rows_ok (F := Ideal) _ hidx
  show V0 m c (Proc.devRef .tc main_v20) = _
  rw [alive_read m c, takeVec_eq _ _ h1, takeVec_eq _ _ h3]
  rfl

/-- The three weight matrices, narrowed: themselves. -/
theorem V_w1 (c : Dev nD) : (V m c main_call7_v0 : S131x64.Idx → EReal) = (m ((c.tc : Thread nD τ).loc main_arg5)) := by
  show (V0 m c (Proc.devRef .tc main_call7_v0) : S131x64.Idx → EReal) = _
  rw [V0_split', h11_w1, E10_kept m c (r := main_arg5) (by decide), E0_arg m c (r := main_arg5) (by decide) (by decide) (by decide)]
theorem V_w2 (c : Dev nD) : (V m c main_call7_v1 : S64x64.Idx → EReal) = (m ((c.tc : Thread nD τ).loc main_arg7)) := by
  show (V0 m c (Proc.devRef .tc main_call7_v1) : S64x64.Idx → EReal) = _
  rw [V0_split', h11_w2, E10_kept m c (r := main_arg7) (by decide), E0_arg m c (r := main_arg7) (by decide) (by decide) (by decide)]
theorem V_w3 (c : Dev nD) : (V m c main_call7_v2 : S64x64.Idx → EReal) = (m ((c.tc : Thread nD τ).loc main_arg9)) := by
  show (V0 m c (Proc.devRef .tc main_call7_v2) : S64x64.Idx → EReal) = _
  rw [V0_split', h11_w3, E10_kept m c (r := main_arg9) (by decide), E0_arg m c (r := main_arg9) (by decide) (by decide) (by decide)]

/-- The three biases as rows. -/
theorem V_b1 (c : Dev nD) (j : Fin 64) : (V m c main_call7_v3 : S1x64.Idx → EReal) (ix2 0 j) = ((m ((c.tc : Thread nD τ).loc main_arg6)) : S64.Idx → EReal) (ix1 j) := by
  show (V0 m c (Proc.devRef .tc main_call7_v3) : S1x64.Idx → EReal) (ix2 0 j) = _
  rw [V0_split', h11_b1, E10_kept m c (r := main_arg6) (by decide), E0_arg m c (r := main_arg6) (by decide) (by decide) (by decide)]
theorem V_b2 (c : Dev nD) (j : Fin 64) : (V m c main_call7_v4 : S1x64.Idx → EReal) (ix2 0 j) = ((m ((c.tc : Thread nD τ).loc main_arg8)) : S64.Idx → EReal) (ix1 j) := by
  show (V0 m c (Proc.devRef .tc main_call7_v4) : S1x64.Idx → EReal) (ix2 0 j) = _
  rw [V0_split', h11_b2, E10_kept m c (r := main_arg8) (by decide), E0_arg m c (r := main_arg8) (by decide) (by decide) (by decide)]
theorem V_b3 (c : Dev nD) (j : Fin 64) : (V m c main_call7_v5 : S1x64.Idx → EReal) (ix2 0 j) = ((m ((c.tc : Thread nD τ).loc main_arg10)) : S64.Idx → EReal) (ix1 j) := by
  show (V0 m c (Proc.devRef .tc main_call7_v5) : S1x64.Idx → EReal) (ix2 0 j) = _
  rw [V0_split', h11_b3, E10_kept m c (r := main_arg10) (by decide), E0_arg m c (r := main_arg10) (by decide) (by decide) (by decide)]

/-- The destinations the scatter indexes by: row 1 of the edge list, as the reference slices it. -/
theorem V_dst (c : Dev nD) : (V m c main_v3 : S800000.Idx → BitVec 32) = Cert.ReferenceIdeal.Read.val_main_v3 (F := Ideal) (m ((c.tc : Thread nD τ).loc main_arg2)) := by
  show V0 m c (Proc.devRef .tc main_v3) = _
  rw [V0_split', keeps_11.after (by decide), E10_kept m c (r := main_v3) (by decide)]
  exact h0_v3 _

end Cert.KernelIdeal.HP

end
-- ==== Proof.KIEfTower.lean ====
/-
  The feature array as one function of the four arrays it is made of, spelled operation by operation as @main
  computes it before the region: the two rows of the edge list, flattened; by each, a guarded gather (wrap the
  indices, test them against the table's range, gather, replace a row that fails the test by the fill value) of the
  node rows, of the phases and of the couplings; sine and cosine of the phase difference; the five pieces joined
  along the columns; the join narrowed to the half format. No program state: arrays in, array out.
-/
import proofs.«427009_j16535624090328_3_alg».proof.Proof.Gen.KernelIdeal

noncomputable section

namespace Cert.KernelIdeal.HP

open Idealize.ShloMosaic
open Cert.KernelIdeal Cert.KernelIdeal.Gen

variable {F : FTy → Type} [FloatOps F]

/-- Row 0 of the edge list (the sources), flattened. -/
def srcRow (x2 : (⟨S2x800000, .i32⟩ : BufTy).Contents (Elt F)) : (⟨S800000, .i32⟩ : BufTy).Contents (Elt F) :=
  fun i => shapeCast S800000 (extractStridedSlice S1x800000 ![0, 0] x2 slices_S2x800000_S1x800000_0_0) shapeCasts_S1x800000_S800000 i

/-- Row 1 of the edge list (the destinations), flattened. -/
def dstRow (x2 : (⟨S2x800000, .i32⟩ : BufTy).Contents (Elt F)) : (⟨S800000, .i32⟩ : BufTy).Contents (Elt F) :=
  fun i => shapeCast S800000 (extractStridedSlice S1x800000 ![1, 0] x2 slices_S2x800000_S1x800000_1_0) shapeCasts_S1x800000_S800000 i

/-- The guarded gather of a vector table by an index array. -/
def take1 (x : (⟨S50000, .f32⟩ : BufTy).Contents (Elt F)) (idx : (⟨S800000, .i32⟩ : BufTy).Contents (Elt F)) :
    (⟨S800000, .f32⟩ : BufTy).Contents (Elt F) :=
  (select (Host.reduce IntOp.andi (andi (cmpi .sge (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)) (broadcastInDim S800000x1 ![] bcast_S_S800000x1 (constantI S_ 32 0#32))) (cmpi .sle (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_) (Host.gather gather_S50000_S800000x1_S800000_n_0_n_n_0_1_1 x (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx))) (broadcastInDim S800000 ![] bcast_S_S800000 (constant (F := F) S_ .f32 0x7FC00000#32)))

/-- The guarded gather of the rows of a 64-column table by an index array. -/
def take64 (x : (⟨S50000x64, .f32⟩ : BufTy).Contents (Elt F)) (idx : (⟨S800000, .i32⟩ : BufTy).Contents (Elt F)) :
    (⟨S800000x64, .f32⟩ : BufTy).Contents (Elt F) :=
  (select (broadcastInDim S800000x64 ![0] bcast_S800000_S800000x64_0 (Host.reduce IntOp.andi (andi (cmpi .sge (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)) (broadcastInDim S800000x1 ![] bcast_S_S800000x1 (constantI S_ 32 0#32))) (cmpi .sle (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx)) (broadcastInDim S800000x1 ![0, 1] bcast_S1x1_S800000x1_0_1 (broadcastInDim S1x1 ![1] bcast_S1_S1x1_1 (constantI S1 32 49999#32))))) (constantI S_ 1 1#1) reducesTo_S800000x1_S800000_d1 h_S_)) (Host.gather gather_S50000x64_S800000x1_S800000x64_1_0_n_n_0_1_164 x (broadcastInDim S800000x1 ![0] bcast_S800000_S800000x1_0 (select (cmpi .slt idx (broadcastInDim S800000 ![] bcast_S_S800000 (constantI S_ 32 0#32))) (addi idx (broadcastInDim S800000 ![] bcast_S_S800000 (constantI S_ 32 50000#32))) idx))) (broadcastInDim S800000x64 ![] bcast_S_S800000x64 (constant (F := F) S_ .f32 0x7FC00000#32)))

/-- The feature array from the node rows, the phases, the edge list and the couplings. -/
def efTower (x0 : (⟨S50000x64, .f32⟩ : BufTy).Contents (Elt F)) (x1 : (⟨S50000, .f32⟩ : BufTy).Contents (Elt F))
    (x2 : (⟨S2x800000, .i32⟩ : BufTy).Contents (Elt F)) (x3 : (⟨S50000, .f32⟩ : BufTy).Contents (Elt F)) :
    (⟨S800000x131, .bf16⟩ : BufTy).Contents (Elt F) :=
  truncf .bf16
    (concatenate S800000x131 1
      [⟨S800000x64, (take64 x0 (dstRow (F := F) x2))⟩,
       ⟨S800000x64, (take64 x0 (srcRow (F := F) x2))⟩,
       ⟨S800000x1, (broadcastInDim S800000x1 ![0] bcast_S800000_S800000x1_0 (Host.sin (subf (take1 x1 (srcRow (F := F) x2)) (take1 x1 (dstRow (F := F) x2)))))⟩,
       ⟨S800000x1, (broadcastInDim S800000x1 ![0] bcast_S800000_S800000x1_0 (Host.cos (subf (take1 x1 (srcRow (F := F) x2)) (take1 x1 (dstRow (F := F) x2)))))⟩,
       ⟨S800000x1, (broadcastInDim S800000x1 ![0] bcast_S800000_S800000x1_0 (take1 x3 (dstRow (F := F) x2)))⟩]
      concatenates_S800000x64_S800000x64_S800000x1_S800000x1_S800000x1_S800000x131_d1) bitsLt_bf16_f32

end Cert.KernelIdeal.HP

end
-- ==== Proof.KIPrefixEfA.lean ====
/-
  The feature array as the region finds it equals the reference's. Where every entry of the edge list is a node
  number, each guarded gather's validity mask is all ones, so the gather is the plain one; the five plain pieces are
  the reference's five stages term for term; and narrowing to the half format changes nothing on the extended reals.
-/
import proofs.«427009_j16535624090328_3_alg».proof.Proof.KIEfTower
import proofs.«427009_j16535624090328_3_alg».proof.Proof.TakeMask
import proofs.«427009_j16535624090328_3_alg».proof.Proof.Gen.ReferenceIdeal.Read
import proofs.«427009_j16535624090328_3_alg».proof.Proof.Spec

set_option maxRecDepth 16384

noncomputable section

namespace Cert.KernelIdeal.HP

open Idealize.ShloMosaic
open Cert.KernelIdeal Cert.KernelIdeal.Gen

namespace EfA

variable {F : FTy → Type} [FloatOps F]

/-- The rows a gather reads: each index, or the index counted from the end when negative, as a column. -/
def rows (idx : (⟨S800000, .i32⟩ : BufTy).Contents (Elt F)) : (⟨S800000x1, .i32⟩ : BufTy).Contents (Elt F) :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- The unguarded gather of a vector table. -/
def plain1 (x : (⟨S50000, .f32⟩ : BufTy).Contents (Elt F)) (idx : (⟨S800000, .i32⟩ : BufTy).Contents (Elt F)) :
    (⟨S800000, .f32⟩ : BufTy).Contents (Elt F) :=
  Host.gather gather_S50000_S800000x1_S800000_n_0_n_n_0_1_1 x (rows (F := F) idx)

/-- The unguarded gather of the rows of a 64-column table. -/
def plain64 (x : (⟨S50000x64, .f32⟩ : BufTy).Contents (Elt F)) (idx : (⟨S800000, .i32⟩ : BufTy).Contents (Elt F)) :
    (⟨S800000x64, .f32⟩ : BufTy).Contents (Elt F) :=
  Host.gather gather_S50000x64_S800000x1_S800000x64_1_0_n_n_0_1_164 x (rows (F := F) idx)

/-- Over an array of node numbers the guarded gather of a vector table is the unguarded one. -/
theorem take1_eq (x : (⟨S50000, .f32⟩ : BufTy).Contents (Elt F)) (idx : (⟨S800000, .i32⟩ : BufTy).Contents (Elt F))
    (h : ∀ i, IntOp.cmpi .sge (idx i) 0#32 = 1#1 ∧ IntOp.cmpi .slt (idx i) 50000#32 = 1#1) :
    take1 (F := F) x idx = plain1 (F := F) x idx := by
  unfold take1 plain1 rows
  rw [Cert.KernelIdeal.Take.mask_eq_one idx h]
  exact Cert.KernelIdeal.Take.select_ones _ _

/-- The same for the 64-column table. -/
theorem take64_eq (x : (⟨S50000x64, .f32⟩ : BufTy).Contents (Elt F)) (idx : (⟨S800000, .i32⟩ : BufTy).Contents (Elt F))
    (h : ∀ i, IntOp.cmpi .sge (idx i) 0#32 = 1#1 ∧ IntOp.cmpi .slt (idx i) 50000#32 = 1#1) :
    take64 (F := F) x idx = plain64 (F := F) x idx := by
  unfold take64 plain64 rows
  rw [Cert.KernelIdeal.Take.mask_eq_one idx h]
  exact Cert.KernelIdeal.Take.select_bcast_ones _ _ _ _

/-- The two flattened rows are the reference's. -/
theorem srcRow_eq (x2 : (⟨S2x800000, .i32⟩ : BufTy).Contents (Elt F)) :
    srcRow (F := F) x2 = Cert.ReferenceIdeal.Read.val_main_v1 (F := F) x2 := rfl
theorem dstRow_eq (x2 : (⟨S2x800000, .i32⟩ : BufTy).Contents (Elt F)) :
    dstRow (F := F) x2 = Cert.ReferenceIdeal.Read.val_main_v3 (F := F) x2 := rfl

/-- Both rows of an edge list of node numbers are arrays of node numbers. -/
theorem src_ok (x2 : (⟨S2x800000, .i32⟩ : BufTy).Contents (Elt F)) (h : Cert.Spec.IdxOk x2) (i : S800000.Idx) :
    IntOp.cmpi .sge (srcRow (F := F) x2 i) 0#32 = 1#1 ∧ IntOp.cmpi .slt (srcRow (F := F) x2 i) 50000#32 = 1#1 := by
  rw [srcRow_eq, Cert.ReferenceIdeal.Read.val_main_v1_apply, Cert.ReferenceIdeal.Read.val_main_v0_apply]
  exact h _
theorem dst_ok (x2 : (⟨S2x800000, .i32⟩ : BufTy).Contents (Elt F)) (h : Cert.Spec.IdxOk x2) (i : S800000.Idx) :
    IntOp.cmpi .sge (dstRow (F := F) x2 i) 0#32 = 1#1 ∧ IntOp.cmpi .slt (dstRow (F := F) x2 i) 50000#32 = 1#1 := by
  rw [dstRow_eq, Cert.ReferenceIdeal.Read.val_main_v3_apply, Cert.ReferenceIdeal.Read.val_main_v2_apply]
  exact h _

/-- Each unguarded gather is a stage of the reference. -/
theorem plain64_dst (x0 : (⟨S50000x64, .f32⟩ : BufTy).Contents (Elt F)) (x2 : (⟨S2x800000, .i32⟩ : BufTy).Contents (Elt F)) :
    plain64 (F := F) x0 (dstRow (F := F) x2) = Cert.ReferenceIdeal.Read.val_main_v36 (F := F) x0 x2 := rfl
theorem plain64_src (x0 : (⟨S50000x64, .f32⟩ : BufTy).Contents (Elt F)) (x2 : (⟨S2x800000, .i32⟩ : BufTy).Contents (Elt F)) :
    plain64 (F := F) x0 (srcRow (F := F) x2) = Cert.ReferenceIdeal.Read.val_main_v29 (F := F) x0 x2 := rfl
theorem plain1_src (x1 : (⟨S50000, .f32⟩ : BufTy).Contents (Elt F)) (x2 : (⟨S2x800000, .i32⟩ : BufTy).Contents (Elt F)) :
    plain1 (F := F) x1 (srcRow (F := F) x2) = Cert.ReferenceIdeal.Read.val_main_v10 (F := F) x1 x2 := rfl
theorem plain1_dst (x1 : (⟨S50000, .f32⟩ : BufTy).Contents (Elt F)) (x2 : (⟨S2x800000, .i32⟩ : BufTy).Contents (Elt F)) :
    plain1 (F := F) x1 (dstRow (F := F) x2) = Cert.ReferenceIdeal.Read.val_main_v17 (F := F) x1 x2 := rfl
theorem plain1_k (x3 : (⟨S50000, .f32⟩ : BufTy).Contents (Elt F)) (x2 : (⟨S2x800000, .i32⟩ : BufTy).Contents (Elt F)) :
    plain1 (F := F) x3 (dstRow (F := F) x2) = Cert.ReferenceIdeal.Read.val_main_v43 (F := F) x2 x3 := rfl

/-- On the extended reals narrowing an array to the half format is the identity. -/
theorem narrow_id (X : FVec Ideal S800000x131 .f32) :
    (truncf (F := Ideal) (s := S800000x131) (φ := .f32) .bf16 X bitsLt_bf16_f32 : S800000x131.Idx → EReal) = X := rfl

end EfA

open EfA in
/-- Over an edge list of node numbers the feature array the region finds is the reference's. -/
theorem efTower_eq_ref (x0 : (⟨S50000x64, .f32⟩ : BufTy).Contents (Elt Ideal)) (x1 : (⟨S50000, .f32⟩ : BufTy).Contents (Elt Ideal)) (x2 : (⟨S2x800000, .i32⟩ : BufTy).Contents (Elt Ideal)) (x3 : (⟨S50000, .f32⟩ : BufTy).Contents (Elt Ideal)) (hidx : Cert.Spec.IdxOk x2) : efTower (F := Ideal) x0 x1 x2 x3 = Cert.ReferenceIdeal.Read.val_main_v45 (F := Ideal) x0 x1 x2 x3 := by
  unfold efTower
  rw [take64_eq x0 _ (dst_ok x2 hidx), take64_eq x0 _ (src_ok x2 hidx), take1_eq x1 _ (src_ok x2 hidx),
    take1_eq x1 _ (dst_ok x2 hidx), take1_eq x3 _ (dst_ok x2 hidx),
    plain64_dst, plain64_src, plain1_src, plain1_dst, plain1_k, narrow_id]
  rfl

end Cert.KernelIdeal.HP

end
-- ==== Proof.KIPrefixEf.lean ====
/-
  The feature array the region reads. Before the region @main slices the edge list into sources and
  destinations and, by each, gathers node rows, phases and couplings; every gather first wraps its indices, tests
  them against the table's range and replaces a row that fails by a fill value. The operations run in twelve
  stretches; the state after a stretch is read off the state before it, one buffer at a time, and a buffer a stretch
  does not write is what it was. Where every edge-list entry is a node number the range tests all hold, no row is
  replaced, and what is left is the reference's own concatenation [h_dst | h_src | sin Δθ | cos Δθ | K_dst]; the
  narrowing to the half format is exact on the extended reals.
-/
import proofs.«427009_j16535624090328_3_alg».proof.Proof.KIEntry
import proofs.«427009_j16535624090328_3_alg».proof.Proof.Gen.ReferenceIdeal.Read
import proofs.«427009_j16535624090328_3_alg».proof.Proof.Spec
import proofs.«427009_j16535624090328_3_alg».proof.Proof.KIEfTower
import proofs.«427009_j16535624090328_3_alg».proof.Proof.KIPrefixEfA
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

noncomputable section

namespace Cert.KernelIdeal.HP

open Idealize.ShloMosaic Idealize.ShloMosaic.TcCoe Idealize.ShloMosaic.ValueIdx
open Idealize.SL Idealize.SL.Sem
open Cert.KernelIdeal Cert.KernelIdeal.Gen Cert.KernelIdeal.HF

/-! ## The state after a stretch, from the state before it -/

section Stretches

variable {F : FTy → Type} [FloatOps F]

/-- A transport along an equation of a type with itself is the identity. -/
theorem cast_eq' {α : Sort _} (h : α = α) (a : α) : cast h a = a := eq_of_heq (cast_heq h a)

/-- Two stretches run one after the other. -/
theorem after_append (l₁ l₂ : List (HloOp τ sig (Elt F))) (W : Valuation τ sig (Elt F)) :
    StableHlo.after (l₁ ++ l₂) W = StableHlo.after l₂ (StableHlo.after l₁ W) := by
  induction l₁ generalizing W with
  | nil => rfl
  | cons op l ih => exact ih _

/-- A five-operand operation's result, each operand's contents at its own reference. -/
theorem nary5_result' {x a b d e y : Ref sig .tc}
    (f : ((k : Fin 5) → ((![x, a, b, d, e] : Fin 5 → Ref sig .tc) k).ty.Contents (Elt F)) → y.ty.Contents (Elt F)) (hxs hy)
    (W : Valuation τ sig (Elt F)) :
    (StableHlo.nary (τ := τ) ![x, a, b, d, e] y f hxs hy).result W (no_index (Proc.devRef .tc y))
      = f (Fin.cons (W (Proc.devRef .tc x)) (Fin.cons (W (Proc.devRef .tc a)) (Fin.cons (W (Proc.devRef .tc b))
          (Fin.cons (W (Proc.devRef .tc d)) (Fin.cons (W (Proc.devRef .tc e)) (fun i => i.elim0)))))) := by
  rw [StableHlo.nary_result]; congr 1; funext k; fin_cases k <;> rfl

/-- Each operation of a stretch writes one of the listed references. -/
local macro "writes_tac" : tactic =>
  `(tactic| (simp only [List.Forall]
             repeat' apply And.intro
             all_goals (simp only [StableHlo.nullary_writes, StableHlo.unary_writes, StableHlo.binary_writes,
               StableHlo.ternary_writes, StableHlo.reshape_writes, StableHlo.nary_writes, Finset.singleton_subset_iff,
               List.mem_toFinset]
                        exact List.mem_map_of_mem (by decide))))

/-- One buffer after a stretch: every operation's result at its own buffer is its function's value, at another
    buffer what was there; the typed references' transports are identities. -/
local macro "stage_tac" : tactic =>
  `(tactic| (simp (disch := decide) only [StableHlo.after_cons, StableHlo.after_nil, nary5_result',
               StableHlo.nullary_result', StableHlo.unary_result', StableHlo.binary_result', StableHlo.ternary_result',
               StableHlo.reshape_result', StableHlo.nullary_result_ne', StableHlo.unary_result_ne', StableHlo.binary_result_ne',
               StableHlo.ternary_result_ne', StableHlo.reshape_result_ne', StableHlo.nary_result_ne']
             try simp only [StableHlo.TRef.ofBuf, StableHlo.TRef.toBuf, cast_eq']
             try rfl))

/-- What stretch 0 writes. -/
abbrev wr0 : List (Ref sig .tc) := [main_v0, main_v1, main_v2, main_v3]
theorem writes0 : (hostOps0 : List (HloOp τ sig (Elt F))).Forall fun op => op.writes ⊆ (wr0.map (Proc.devRef (τ := τ) .tc)).toFinset := by
  writes_tac
/-- A buffer stretch 0 does not write is what it was. -/
theorem keep0 (W : Valuation τ sig (Elt F)) (r : Ref sig .tc) (h : r ∉ wr0) :
    StableHlo.after (hostOps0 (F := F)) W (no_index (Proc.devRef .tc r)) = W (Proc.devRef .tc r) :=
  StableHlo.after_of_writes_sub hostOps0 W writes0 h

/-- What stretch 1 writes. -/
abbrev wr1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem writes1 : (hostOps0_1 : List (HloOp τ sig (Elt F))).Forall fun op => op.writes ⊆ (wr1.map (Proc.devRef (τ := τ) .tc)).toFinset := by
  writes_tac
/-- A buffer stretch 1 does not write is what it was. -/
theorem keep1 (W : Valuation τ sig (Elt F)) (r : Ref sig .tc) (h : r ∉ wr1) :
    StableHlo.after (hostOps0_1 (F := F)) W (no_index (Proc.devRef .tc r)) = W (Proc.devRef .tc r) :=
  StableHlo.after_of_writes_sub hostOps0_1 W writes1 h

/-- What stretch 2 writes. -/
abbrev wr2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
theorem writes2 : (hostOps0_2 : List (HloOp τ sig (Elt F))).Forall fun op => op.writes ⊆ (wr2.map (Proc.devRef (τ := τ) .tc)).toFinset := by
  writes_tac
/-- A buffer stretch 2 does not write is what it was. -/
theorem keep2 (W : Valuation τ sig (Elt F)) (r : Ref sig .tc) (h : r ∉ wr2) :
    StableHlo.after (hostOps0_2 (F := F)) W (no_index (Proc.devRef .tc r)) = W (Proc.devRef .tc r) :=
  StableHlo.after_of_writes_sub hostOps0_2 W writes2 h

/-- What stretch 3 writes. -/
abbrev wr3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v6]
theorem writes3 : (hostOps0_3 : List (HloOp τ sig (Elt F))).Forall fun op => op.writes ⊆ (wr3.map (Proc.devRef (τ := τ) .tc)).toFinset := by
  writes_tac
/-- A buffer stretch 3 does not write is what it was. -/
theorem keep3 (W : Valuation τ sig (Elt F)) (r : Ref sig .tc) (h : r ∉ wr3) :
    StableHlo.after (hostOps0_3 (F := F)) W (no_index (Proc.devRef .tc r)) = W (Proc.devRef .tc r) :=
  StableHlo.after_of_writes_sub hostOps0_3 W writes3 h

/-- What stretch 4 writes. -/
abbrev wr4 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v7]
theorem writes4 : (hostOps0_4 : List (HloOp τ sig (Elt F))).Forall fun op => op.writes ⊆ (wr4.map (Proc.devRef (τ := τ) .tc)).toFinset := by
  writes_tac
/-- A buffer stretch 4 does not write is what it was. -/
theorem keep4 (W : Valuation τ sig (Elt F)) (r : Ref sig .tc) (h : r ∉ wr4) :
    StableHlo.after (hostOps0_4 (F := F)) W (no_index (Proc.devRef .tc r)) = W (Proc.devRef .tc r) :=
  StableHlo.after_of_writes_sub hostOps0_4 W writes4 h

/-- What stretch 5 writes. -/
abbrev wr5 : List (Ref sig .tc) := [main_v8, main_v9, main_v10, main_v11, main_v12]
theorem writes5 : (hostOps0_5 : List (HloOp τ sig (Elt F))).Forall fun op => op.writes ⊆ (wr5.map (Proc.devRef (τ := τ) .tc)).toFinset := by
  writes_tac
/-- A buffer stretch 5 does not write is what it was. -/
theorem keep5 (W : Valuation τ sig (Elt F)) (r : Ref sig .tc) (h : r ∉ wr5) :
    StableHlo.after (hostOps0_5 (F := F)) W (no_index (Proc.devRef .tc r)) = W (Proc.devRef .tc r) :=
  StableHlo.after_of_writes_sub hostOps0_5 W writes5 h

/-- What stretch 6 writes. -/
abbrev wr6 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v13]
theorem writes6 : (hostOps0_6 : List (HloOp τ sig (Elt F))).Forall fun op => op.writes ⊆ (wr6.map (Proc.devRef (τ := τ) .tc)).toFinset := by
  writes_tac
/-- A buffer stretch 6 does not write is what it was. -/
theorem keep6 (W : Valuation τ sig (Elt F)) (r : Ref sig .tc) (h : r ∉ wr6) :
    StableHlo.after (hostOps0_6 (F := F)) W (no_index (Proc.devRef .tc r)) = W (Proc.devRef .tc r) :=
  StableHlo.after_of_writes_sub hostOps0_6 W writes6 h

/-- What stretch 7 writes. -/
abbrev wr7 : List (Ref sig .tc) := [main_v14, main_v15, main_v16]
theorem writes7 : (hostOps0_7 : List (HloOp τ sig (Elt F))).Forall fun op => op.writes ⊆ (wr7.map (Proc.devRef (τ := τ) .tc)).toFinset := by
  writes_tac
/-- A buffer stretch 7 does not write is what it was. -/
theorem keep7 (W : Valuation τ sig (Elt F)) (r : Ref sig .tc) (h : r ∉ wr7) :
    StableHlo.after (hostOps0_7 (F := F)) W (no_index (Proc.devRef .tc r)) = W (Proc.devRef .tc r) :=
  StableHlo.after_of_writes_sub hostOps0_7 W writes7 h

/-- What stretch 8 writes. -/
abbrev wr8 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v17]
theorem writes8 : (hostOps0_8 : List (HloOp τ sig (Elt F))).Forall fun op => op.writes ⊆ (wr8.map (Proc.devRef (τ := τ) .tc)).toFinset := by
  writes_tac
/-- A buffer stretch 8 does not write is what it was. -/
theorem keep8 (W : Valuation τ sig (Elt F)) (r : Ref sig .tc) (h : r ∉ wr8) :
    StableHlo.after (hostOps0_8 (F := F)) W (no_index (Proc.devRef .tc r)) = W (Proc.devRef .tc r) :=
  StableHlo.after_of_writes_sub hostOps0_8 W writes8 h

/-- What stretch 9 writes. -/
abbrev wr9 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v18]
theorem writes9 : (hostOps0_9 : List (HloOp τ sig (Elt F))).Forall fun op => op.writes ⊆ (wr9.map (Proc.devRef (τ := τ) .tc)).toFinset := by
  writes_tac
/-- A buffer stretch 9 does not write is what it was. -/
theorem keep9 (W : Valuation τ sig (Elt F)) (r : Ref sig .tc) (h : r ∉ wr9) :
    StableHlo.after (hostOps0_9 (F := F)) W (no_index (Proc.devRef .tc r)) = W (Proc.devRef .tc r) :=
  StableHlo.after_of_writes_sub hostOps0_9 W writes9 h

/-- What stretch 10 writes. -/
abbrev wr10 : List (Ref sig .tc) := [main_v19, main_v20]
theorem writes10 : (hostOps0_10 : List (HloOp τ sig (Elt F))).Forall fun op => op.writes ⊆ (wr10.map (Proc.devRef (τ := τ) .tc)).toFinset := by
  writes_tac
/-- A buffer stretch 10 does not write is what it was. -/
theorem keep10 (W : Valuation τ sig (Elt F)) (r : Ref sig .tc) (h : r ∉ wr10) :
    StableHlo.after (hostOps0_10 (F := F)) W (no_index (Proc.devRef .tc r)) = W (Proc.devRef .tc r) :=
  StableHlo.after_of_writes_sub hostOps0_10 W writes10 h

/-- What stretch 11 writes. -/
abbrev wr11 : List (Ref sig .tc) := [main_call7_v0, main_call7_v1, main_call7_v2, main_call7_v3, main_call7_v4, main_call7_v5]
theorem writes11 : (hostOps0_11 : List (HloOp τ sig (Elt F))).Forall fun op => op.writes ⊆ (wr11.map (Proc.devRef (τ := τ) .tc)).toFinset := by
  writes_tac
/-- A buffer stretch 11 does not write is what it was. -/
theorem keep11 (W : Valuation τ sig (Elt F)) (r : Ref sig .tc) (h : r ∉ wr11) :
    StableHlo.after (hostOps0_11 (F := F)) W (no_index (Proc.devRef .tc r)) = W (Proc.devRef .tc r) :=
  StableHlo.after_of_writes_sub hostOps0_11 W writes11 h

/-! ## What each stretch leaves in the buffer the next ones read -/

/-- Stretch 0: the two rows of the edge list. -/
theorem st0_v1 (W : Valuation τ sig (Elt F)) :
    (StableHlo.after (hostOps0 (F := F)) W (no_index (Proc.devRef .tc main_v1)) : (⟨S800000, .i32⟩ : BufTy).Contents (Elt F)) = srcRow (F := F) (W (Proc.devRef .tc main_arg2)) := by
  simp only [hostOps0]
  unfold srcRow
  stage_tac

theorem st0_v3 (W : Valuation τ sig (Elt F)) :
    (StableHlo.after (hostOps0 (F := F)) W (no_index (Proc.devRef .tc main_v3)) : (⟨S800000, .i32⟩ : BufTy).Contents (Elt F)) = dstRow (F := F) (W (Proc.devRef .tc main_arg2)) := by
  simp only [hostOps0]
  unfold dstRow
  stage_tac

/-- Stretches 1 and 2: the node rows gathered by source and by destination. -/
theorem st1 (W : Valuation τ sig (Elt F)) :
    (StableHlo.after (hostOps0_1 (F := F)) W (no_index (Proc.devRef .tc main_v4)) : (⟨S800000x64, .f32⟩ : BufTy).Contents (Elt F)) = take64 (W (Proc.devRef .tc main_arg0)) (W (Proc.devRef .tc main_v1)) := by
  simp only [hostOps0_1]
  unfold take64
  stage_tac

theorem st2 (W : Valuation τ sig (Elt F)) :
    (StableHlo.after (hostOps0_2 (F := F)) W (no_index (Proc.devRef .tc main_v5)) : (⟨S800000x64, .f32⟩ : BufTy).Contents (Elt F)) = take64 (W (Proc.devRef .tc main_arg0)) (W (Proc.devRef .tc main_v3)) := by
  simp only [hostOps0_2]
  unfold take64
  stage_tac

/-- Stretches 3 and 4: the phases gathered by source and by destination. -/
theorem st3 (W : Valuation τ sig (Elt F)) :
    (StableHlo.after (hostOps0_3 (F := F)) W (no_index (Proc.devRef .tc main_v6)) : (⟨S800000, .f32⟩ : BufTy).Contents (Elt F)) = take1 (W (Proc.devRef .tc main_arg1)) (W (Proc.devRef .tc main_v1)) := by
  simp only [hostOps0_3]
  unfold take1
  stage_tac

theorem st4 (W : Valuation τ sig (Elt F)) :
    (StableHlo.after (hostOps0_4 (F := F)) W (no_index (Proc.devRef .tc main_v7)) : (⟨S800000, .f32⟩ : BufTy).Contents (Elt F)) = take1 (W (Proc.devRef .tc main_arg1)) (W (Proc.devRef .tc main_v3)) := by
  simp only [hostOps0_4]
  unfold take1
  stage_tac

/-- Stretch 5: sine and cosine of the phase difference, as columns. -/
theorem st5a (W : Valuation τ sig (Elt F)) :
    (StableHlo.after (hostOps0_5 (F := F)) W (no_index (Proc.devRef .tc main_v10)) : (⟨S800000x1, .f32⟩ : BufTy).Contents (Elt F)) = (broadcastInDim S800000x1 ![0] bcast_S800000_S800000x1_0 (Host.sin (subf (W (Proc.devRef .tc main_v6)) (W (Proc.devRef .tc main_v7))))) := by
  simp only [hostOps0_5]
  stage_tac

theorem st5b (W : Valuation τ sig (Elt F)) :
    (StableHlo.after (hostOps0_5 (F := F)) W (no_index (Proc.devRef .tc main_v12)) : (⟨S800000x1, .f32⟩ : BufTy).Contents (Elt F)) = (broadcastInDim S800000x1 ![0] bcast_S800000_S800000x1_0 (Host.cos (subf (W (Proc.devRef .tc main_v6)) (W (Proc.devRef .tc main_v7))))) := by
  simp only [hostOps0_5]
  stage_tac

/-- Stretch 6: the couplings gathered by destination. -/
theorem st6 (W : Valuation τ sig (Elt F)) :
    (StableHlo.after (hostOps0_6 (F := F)) W (no_index (Proc.devRef .tc main_v13)) : (⟨S800000, .f32⟩ : BufTy).Contents (Elt F)) = take1 (W (Proc.devRef .tc main_arg3)) (W (Proc.devRef .tc main_v3)) := by
  simp only [hostOps0_6]
  unfold take1
  stage_tac

/-- Stretch 7: the five pieces joined along the columns, narrowed. -/
theorem st7 (W : Valuation τ sig (Elt F)) :
    (StableHlo.after (hostOps0_7 (F := F)) W (no_index (Proc.devRef .tc main_v16)) : (⟨S800000x131, .bf16⟩ : BufTy).Contents (Elt F)) = truncf .bf16
      (concatenate S800000x131 1
        [⟨S800000x64, (W (Proc.devRef .tc main_v5))⟩, ⟨S800000x64, (W (Proc.devRef .tc main_v4))⟩, ⟨S800000x1, (W (Proc.devRef .tc main_v10))⟩,
         ⟨S800000x1, (W (Proc.devRef .tc main_v12))⟩, ⟨S800000x1, (broadcastInDim S800000x1 ![0] bcast_S800000_S800000x1_0 (W (Proc.devRef .tc main_v13)))⟩]
        concatenates_S800000x64_S800000x64_S800000x1_S800000x1_S800000x1_S800000x131_d1) bitsLt_bf16_f32 := by
  simp only [hostOps0_7]
  stage_tac

end Stretches

/-! ## The feature array -/

/-- The joined and narrowed array depends on its five pieces only. -/
theorem tower_congr {F : FTy → Type} [FloatOps F] {a5 b5 a4 b4 : (⟨S800000x64, .f32⟩ : BufTy).Contents (Elt F)}
    {a10 b10 a12 b12 : (⟨S800000x1, .f32⟩ : BufTy).Contents (Elt F)} {a13 b13 : (⟨S800000, .f32⟩ : BufTy).Contents (Elt F)}
    (h5 : a5 = b5) (h4 : a4 = b4) (h10 : a10 = b10) (h12 : a12 = b12) (h13 : a13 = b13)
    (hc : Shape.Concatenates [S800000x64, S800000x64, S800000x1, S800000x1, S800000x1] S800000x131 1)
    (hb : FTy.bits .bf16 < FTy.bits .f32) :
    truncf .bf16
        (concatenate S800000x131 1
          [⟨S800000x64, a5⟩, ⟨S800000x64, a4⟩, ⟨S800000x1, a10⟩, ⟨S800000x1, a12⟩, ⟨S800000x1, (broadcastInDim S800000x1 ![0] bcast_S800000_S800000x1_0 a13)⟩] hc) hb
      = truncf .bf16
        (concatenate S800000x131 1
          [⟨S800000x64, b5⟩, ⟨S800000x64, b4⟩, ⟨S800000x1, b10⟩, ⟨S800000x1, b12⟩, ⟨S800000x1, (broadcastInDim S800000x1 ![0] bcast_S800000_S800000x1_0 b13)⟩] hc) hb := by
  subst h5 h4 h10 h12 h13
  rfl

variable (m : (ℓ : Loc nD τ sig) → Buf (Elt Ideal) ℓ)

/-- The feature array the region reads is the tower of operations over the four arrays it is made of. -/
theorem V_ef_tower (c : Dev nD) :
    (V m c main_v16 : S800000x131.Idx → EReal)
      = efTower (F := Ideal) (m ((c.tc : Thread nD τ).loc main_arg0)) (m ((c.tc : Thread nD τ).loc main_arg1))
          (m ((c.tc : Thread nD τ).loc main_arg2)) (m ((c.tc : Thread nD τ).loc main_arg3)) := by
  dsimp only [V, V0, pre]
  simp only [List.flatten_cons, List.flatten_nil, List.append_nil, after_append]
  simp (disch := decide) only [keep8, keep9, keep10, keep11, st7]
  unfold efTower
  refine tower_congr ?_ ?_ ?_ ?_ ?_ _ _
  all_goals simp (disch := decide) only [keep0, keep1, keep2, keep3, keep4, keep5, keep6, keep7, keep8, keep9, keep10, keep11,
    st6, st5a, st5b, st4, st3, st2, st1, st0_v1, st0_v3]
  all_goals rfl

/-- The feature array the region reads is the reference's concatenation of gathered rows. -/
theorem V_ef (c : Dev nD) (hidx : Cert.Spec.IdxOk (m ((c.tc : Thread nD τ).loc main_arg2))) :
    (V m c main_v16 : S800000x131.Idx → EReal)
      = Cert.ReferenceIdeal.Read.val_main_v45 (F := Ideal) (m ((c.tc : Thread nD τ).loc main_arg0)) (m ((c.tc : Thread nD τ).loc main_arg1)) (m ((c.tc : Thread nD τ).loc main_arg2)) (m ((c.tc : Thread nD τ).loc main_arg3)) :=
  (V_ef_tower m c).trans (efTower_eq_ref _ _ _ _ hidx)

end Cert.KernelIdeal.HP

end
-- ==== Proof.RefMsg.lean ====
/-
  The reference's message array at one entry. The reference multiplies the whole 800000×131 feature array by W1,
  adds b1, applies relu, and so on through three layers, then scales row e by the edge's mask factor. A product's
  entry is the sum over the contracted coordinate, so entry (e, q) is the three-layer message of feature row e.
-/
import proofs.«427009_j16535624090328_3_alg».proof.Proof.Gen.ReferenceIdeal.Read
import proofs.«427009_j16535624090328_3_alg».proof.Proof.Spec

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- First layer at entry (e, k): the product with W1 reads row e of the feature array against column k of W1, the
    broadcast bias reads b1 at k, and the maximum with the zero array is relu. -/
theorem layer1_apply (x0 : (⟨S50000x64, .f32⟩ : BufTy).Contents (Elt Ideal)) (x1 : (⟨S50000, .f32⟩ : BufTy).Contents (Elt Ideal)) (x2 : (⟨S2x800000, .i32⟩ : BufTy).Contents (Elt Ideal))
    (x3 : (⟨S50000, .f32⟩ : BufTy).Contents (Elt Ideal)) (x5 : (⟨S131x64, .f32⟩ : BufTy).Contents (Elt Ideal)) (x6 : (⟨S64, .f32⟩ : BufTy).Contents (Elt Ideal)) (e : Fin 800000) (k : Fin 64) :
    val_main_v50 (F := Ideal) x0 x1 x2 x3 x5 x6 (ix2 e k)
      = Cert.Spec.relu (Cert.Spec.layer (fun k'' => val_main_v45 (F := Ideal) x0 x1 x2 x3 (ix2 e k''))
          (fun k'' j => x5 (ix2 k'' j)) (fun j => x6 (ix1 j)) k) := by
  have hl : ∀ k'' : Fin 131, lidx_main_v46 (ix2 e k) k'' = ix2 e k'' := fun k'' =>
    funext fun a => Fin.ext (by match a with | ⟨0, _⟩ => rfl | ⟨1, _⟩ => rfl)
  have hr : ∀ k'' : Fin 131, ridx_main_v46 (ix2 e k) k'' = ix2 k'' k := fun k'' =>
    funext fun a => Fin.ext (by match a with | ⟨0, _⟩ => rfl | ⟨1, _⟩ => rfl)
  have hb : idx_main_v47 (idx_main_v48 (ix2 e k)) = ix1 k :=
    funext fun a => Fin.ext (by match a with | ⟨0, _⟩ => rfl)
  rw [val_main_v50_apply, val_main_v49_apply, val_main_v46_apply, val_main_v48_apply, val_main_v47_apply,
    val_main_call0_v0_apply, val_main_call0_cst_apply]
  simp only [hl, hr, hb, Ideal.addf_def, Ideal.maximumf_def, Ideal.ofBits_def, Ideal.ofBits_zero_f32]
  rfl

/-- Second layer at entry (e, k): the same reading one layer up, over the first layer's row e. -/
theorem layer2_apply (x0 : (⟨S50000x64, .f32⟩ : BufTy).Contents (Elt Ideal)) (x1 : (⟨S50000, .f32⟩ : BufTy).Contents (Elt Ideal)) (x2 : (⟨S2x800000, .i32⟩ : BufTy).Contents (Elt Ideal))
    (x3 : (⟨S50000, .f32⟩ : BufTy).Contents (Elt Ideal)) (x5 : (⟨S131x64, .f32⟩ : BufTy).Contents (Elt Ideal)) (x6 : (⟨S64, .f32⟩ : BufTy).Contents (Elt Ideal)) (x7 : (⟨S64x64, .f32⟩ : BufTy).Contents (Elt Ideal))
    (x8 : (⟨S64, .f32⟩ : BufTy).Contents (Elt Ideal)) (e : Fin 800000) (k : Fin 64) :
    val_main_v55 (F := Ideal) x0 x1 x2 x3 x5 x6 x7 x8 (ix2 e k)
      = Cert.Spec.relu (Cert.Spec.layer
          (fun k' => Cert.Spec.relu (Cert.Spec.layer (fun k'' => val_main_v45 (F := Ideal) x0 x1 x2 x3 (ix2 e k''))
            (fun k'' j => x5 (ix2 k'' j)) (fun j => x6 (ix1 j)) k'))
          (fun k' j => x7 (ix2 k' j)) (fun j => x8 (ix1 j)) k) := by
  have hl : ∀ k' : Fin 64, lidx_main_v51 (ix2 e k) k' = ix2 e k' := fun k' =>
    funext fun a => Fin.ext (by match a with | ⟨0, _⟩ => rfl | ⟨1, _⟩ => rfl)
  have hr : ∀ k' : Fin 64, ridx_main_v51 (ix2 e k) k' = ix2 k' k := fun k' =>
    funext fun a => Fin.ext (by match a with | ⟨0, _⟩ => rfl | ⟨1, _⟩ => rfl)
  have hb : idx_main_v52 (idx_main_v53 (ix2 e k)) = ix1 k :=
    funext fun a => Fin.ext (by match a with | ⟨0, _⟩ => rfl)
  rw [val_main_v55_apply, val_main_v54_apply, val_main_v51_apply, val_main_v53_apply, val_main_v52_apply,
    val_main_call1_v0_apply, val_main_call1_cst_apply]
  simp only [hl, hr, hb, layer1_apply, Ideal.addf_def, Ideal.maximumf_def, Ideal.ofBits_def, Ideal.ofBits_zero_f32]
  rfl

/-- Entry (e, q) of the reference's message array is the message of its feature row e with its mask factor,
    coordinate q. The feature array (a concatenation of gathered rows) and the mask array are left as they are. -/
theorem msg_apply (x0 : (⟨S50000x64, .f32⟩ : BufTy).Contents (Elt Ideal)) (x1 : (⟨S50000, .f32⟩ : BufTy).Contents (Elt Ideal)) (x2 : (⟨S2x800000, .i32⟩ : BufTy).Contents (Elt Ideal))
    (x3 x4 : (⟨S50000, .f32⟩ : BufTy).Contents (Elt Ideal)) (x5 : (⟨S131x64, .f32⟩ : BufTy).Contents (Elt Ideal)) (x6 : (⟨S64, .f32⟩ : BufTy).Contents (Elt Ideal)) (x7 : (⟨S64x64, .f32⟩ : BufTy).Contents (Elt Ideal))
    (x8 : (⟨S64, .f32⟩ : BufTy).Contents (Elt Ideal)) (x9 : (⟨S64x64, .f32⟩ : BufTy).Contents (Elt Ideal)) (x10 : (⟨S64, .f32⟩ : BufTy).Contents (Elt Ideal)) (e : Fin 800000) (q : Fin 64) :
    val_main_v77 (F := Ideal) x0 x1 x2 x3 x4 x5 x6 x7 x8 x9 x10 (ix2 e q)
      = Cert.Spec.msgRow (fun k => val_main_v45 (F := Ideal) x0 x1 x2 x3 (ix2 e k)) (val_main_v75 (F := Ideal) x2 x4 (ix2 e 0))
          (fun k j => x5 (ix2 k j)) (fun j => x6 (ix1 j)) (fun k j => x7 (ix2 k j)) (fun j => x8 (ix1 j))
          (fun k j => x9 (ix2 k j)) (fun j => x10 (ix1 j)) q := by
  have hl : ∀ k : Fin 64, lidx_main_v56 (ix2 e q) k = ix2 e k := fun k =>
    funext fun a => Fin.ext (by match a with | ⟨0, _⟩ => rfl | ⟨1, _⟩ => rfl)
  have hr : ∀ k : Fin 64, ridx_main_v56 (ix2 e q) k = ix2 k q := fun k =>
    funext fun a => Fin.ext (by match a with | ⟨0, _⟩ => rfl | ⟨1, _⟩ => rfl)
  have hb : idx_main_v57 (idx_main_v58 (ix2 e q)) = ix1 q :=
    funext fun a => Fin.ext (by match a with | ⟨0, _⟩ => rfl)
  have hm : idx_main_v76 (ix2 e q) = ix2 e 0 :=
    funext fun a => Fin.ext (by match a with | ⟨0, _⟩ => rfl | ⟨1, _⟩ => rfl)
  rw [val_main_v77_apply, val_main_v59_apply, val_main_v56_apply, val_main_v58_apply, val_main_v57_apply,
    val_main_v76_apply]
  simp only [hl, hr, hb, hm, layer2_apply, Ideal.addf_def, Ideal.mulf_def]
  rfl

end Cert.ReferenceIdeal.RefValue

end
-- ==== Proof.Bridge.lean ====
/-
  The two results are one. Both programs end with the scatter-add, into a zero array, by the edge list's
  destination row, of an 800000×64 message array; the kernel's message array is, entry by entry, the three-layer
  message of the feature row the region found, the reference's the three-layer message of its own feature row,
  and where every edge-list entry is a node number the two feature arrays, the two mask columns, the weights and
  the biases agree. So the message arrays agree, and with them the results.
-/
import proofs.«427009_j16535624090328_3_alg».proof.Proof.KIValue
import proofs.«427009_j16535624090328_3_alg».proof.Proof.KIPrefix
import proofs.«427009_j16535624090328_3_alg».proof.Proof.KIPrefixEf
import proofs.«427009_j16535624090328_3_alg».proof.Proof.RefMsg

noncomputable section

namespace Cert.Proof.Bridge

open Idealize.ShloMosaic Idealize.ShloMosaic.TcCoe Idealize.ShloMosaic.ValueIdx
open Idealize.SL Idealize.SL.Sem
open Cert.KernelIdeal Cert.KernelIdeal.Gen Cert.KernelIdeal.HF Cert.KernelIdeal.HP Cert.KernelIdeal.HVal

variable (m : (ℓ : Loc nD τ sig) → Buf (Elt Ideal) ℓ)

/-- The kernel's message array is the reference's message stage of the same argument arrays. -/
theorem msg_eq (c : Dev nD) (hidx : Cert.Spec.IdxOk (m ((c.tc : Thread nD τ).loc main_arg2))) :
    msgArr m c = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext i
  have hi : i = ix2 (rowOf i) (colOf i) := by
    funext a; match a with | ⟨0, _⟩ => rfl | ⟨1, _⟩ => rfl
  rw [hi, Cert.ReferenceIdeal.RefValue.msg_apply]
  unfold msgArr
  rw [V_ef m c hidx, V_alive m c hidx, V_w1 m c, V_w2 m c, V_w3 m c]
  simp only [V_b1 m c, V_b2 m c, V_b3 m c]

/-- The reference's result, run from a memory that agrees with the kernel's on the arguments, is the kernel's result:
    the same scatter-add of the same zeros, destinations and messages. -/
theorem result_eq (m' : (ℓ : Loc Cert.ReferenceIdeal.nD Cert.ReferenceIdeal.τ Cert.ReferenceIdeal.sig) → Buf (Elt Ideal) ℓ) (c : Dev nD)
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10))
    (hidx : Cert.Spec.IdxOk (m ((c.tc : Thread nD τ).loc main_arg2))) :
    Cert.ReferenceIdeal.Value.res_main_v80 m' c
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 (V m c main_v3 : S800000.Idx → BitVec 32))
          (msgArr m c) := by
  rw [Cert.ReferenceIdeal.Read.val_main_v80_eq, hag.1, hag.2.1, hag.2.2.1, hag.2.2.2.1, hag.2.2.2.2.1, hag.2.2.2.2.2.1, hag.2.2.2.2.2.2.1, hag.2.2.2.2.2.2.2.1, hag.2.2.2.2.2.2.2.2.1, hag.2.2.2.2.2.2.2.2.2.1, hag.2.2.2.2.2.2.2.2.2.2]
  rw [msg_eq m c hidx, V_dst m c]
  rfl

end Cert.Proof.Bridge

end
-- ==== Proof.PreDecode.lean ====
/-
  Reading the precondition. The predicate is a conjunction (a chain of bitwise ands of one-bit scalars) of: every
  float input finite, every entry of the edge list ≥ 0, every entry < 50000; each "every" is an and-reduction of
  an elementwise compare. If the chain is 1, each conjunct is 1, and an and-reduction that is 1 has every element 1.
-/
import proofs.«427009_j16535624090328_3_alg».proof.Pre_finite_inputs
import proofs.«427009_j16535624090328_3_alg».proof.Proof.Spec
import Idealize.ShloMosaic.Lib.ReduceAll
import Idealize.ShloMosaic.Lib.StableHlo.Predicate
import Idealize.ShloMosaic.Lib.Affine

noncomputable section

namespace Cert.Pre_finite_inputs.Decode

open Idealize.ShloMosaic Idealize.ShloMosaic.TcCoe
open Cert.Pre_finite_inputs

variable {F : FTy → Type} [FloatOps F]
variable [Cert.Pre_finite_inputs.Facts]

/-- The scalar shape has exactly one index (a function out of the empty set of axes). -/
local instance : Subsingleton S_.Idx := ⟨fun a b => funext fun d => d.elim0⟩

/-- The tail of the chain, `(c ∧ all p) ∧ all (x < 50000)` with `c` the conjunction so far and `p` any one-bit
    array: if it is 1 then both and-reductions are 1 (a one-bit and is 1 only when both sides are), so every
    entry of `p` is 1 and every entry of `x` compares below 50000 (the broadcast constant reads 50000 at
    every index, so the elementwise compare at `i` is the word compare of `x i` with 50000). -/
theorem part3_decode (a2 : IVec S2x800000 32) (v48 : IVec S_ 1) (v50 : IVec S2x800000 1)
    (h : fn_part3 (F := F) a2 v48 v50 ValueIdx.ix0 = 1#1) :
    (∀ i, v50 i = 1#1) ∧ ∀ i, IntOp.cmpi .slt (a2 i) 50000#32 = 1#1 := by
  obtain ⟨h1, h2⟩ := IntOp.andi_eq_one.1 h
  obtain ⟨_, h3⟩ := IntOp.andi_eq_one.1 h1
  exact ⟨Host.reduce_andi_all _ _ _ _ _ h3, Host.reduce_andi_all _ _ _ _ _ h2⟩

/-- Where the precondition holds, every entry of the edge list is a node number. The chain's value at the one
    scalar index is `(c ∧ all (x ≥ 0)) ∧ all (x < 50000)`, `c` the ten finiteness conjuncts, which are not looked
    into; the entry of `x ≥ 0` at `i` is the word compare of `x i` with 0, the constant being broadcast. -/
theorem idxOk_of_fn (a0 : FVec F S50000x64 .f32) (a1 : FVec F S50000 .f32) (a2 : IVec S2x800000 32) (a3 a4 : FVec F S50000 .f32)
    (a5 : FVec F S131x64 .f32) (a6 : FVec F S64 .f32) (a7 : FVec F S64x64 .f32) (a8 : FVec F S64 .f32) (a9 : FVec F S64x64 .f32)
    (a10 : FVec F S64 .f32) (h : fn (F := F) a0 a1 a2 a3 a4 a5 a6 a7 a8 a9 a10 = fun _ => 1#1) : Cert.Spec.IdxOk a2 := by
  have h0 := congrFun h ValueIdx.ix0
  dsimp only [fn, fn_part1, fn_part2] at h0
  obtain ⟨hge, hlt⟩ := part3_decode (F := F) _ _ _ h0
  intro i
  exact ⟨hge i, hlt i⟩

end Cert.Pre_finite_inputs.Decode

end
-- ==== Proof.lean ====
/-
  The certificate. One edge-message kernel against its reference: gather node rows along 800000 edges, push each
  edge's 131 features through a three-layer perceptron, scale by the edge's liveness, and sum the messages into
  their destination nodes. The kernel runs the perceptron on the matrix unit over blocks of 10000 edges, from
  features and weights narrowed to the half format; on the extended reals narrowing is exact and a product into a
  zero accumulator is the plain sum, so block by block it computes the reference's rows. The one difference is
  in the gathers: the kernel's fill an out-of-range row with a fill value where the reference's clamp, which is
  why the precondition asks that every edge-list entry be a node number. Under it both programs end at the same
  scatter-add of the same messages.
-/
import proofs.«427009_j16535624090328_3_alg».proof.Defs
import proofs.«427009_j16535624090328_3_alg».proof.Proof.Gen.Kernel
import proofs.«427009_j16535624090328_3_alg».proof.Proof.Gen.KernelIdeal
import proofs.«427009_j16535624090328_3_alg».proof.Proof.Gen.ReferenceIdeal
import proofs.«427009_j16535624090328_3_alg».proof.Proof.Gen.Pre_finite_inputs
import proofs.«427009_j16535624090328_3_alg».proof.Proof.Gen.ReferenceIdeal.Run
import proofs.«427009_j16535624090328_3_alg».proof.Proof.KFrame
import proofs.«427009_j16535624090328_3_alg».proof.Proof.KIFrame
import proofs.«427009_j16535624090328_3_alg».proof.Proof.Bridge
import proofs.«427009_j16535624090328_3_alg».proof.Proof.PreDecode
import Idealize.ShloMosaic.Adequacy
import Idealize.ShloMosaic.Init

noncomputable section

namespace Cert.Proof

open Idealize.ShloMosaic Idealize.SL.Sem

/-- The word-level program runs to the end and keeps its arguments. -/
theorem frame_k : Cert.frame_Kernel := fun m ρ _ => Cert.Kernel.HF.frame m ρ

/-- So does its reading on the extended reals. -/
theorem frame_ki : Cert.frame_KernelIdeal := fun m ρ _ => Cert.KernelIdeal.HF.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the same result. -/
theorem algebraic : Cert.algebraic_KernelIdeal_ReferenceIdeal := by
  intro m ρ m' ρ' hpre hagree
  have hidx : ∀ c : Dev Cert.KernelIdeal.nD,
      Cert.Spec.IdxOk (m ((c.tc : Thread Cert.KernelIdeal.nD Cert.KernelIdeal.τ).loc Cert.KernelIdeal.main_arg2)) :=
    fun c => Cert.Pre_finite_inputs.Decode.idxOk_of_fn _ _ _ _ _ _ _ _ _ _ _ (hpre c)
  refine ⟨_, Cert.KernelIdeal.HVal.run_value m ρ, ?_⟩
  refine (θ_run Cert.ReferenceIdeal.defs _ _).mono (fun _ h c => ⟨(h c).1.trans ?_, (h c).2⟩)
    (Cert.ReferenceIdeal.Value.run (F := Ideal) m' ρ')
  exact Cert.Proof.Bridge.result_eq m m' c (hagree c) (hidx c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
